-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x4 : Shape := ⟨2, ![600000, 4]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x4 : S_.BroadcastsInDim S600000x4 (![] : Fin 0 → Fin S600000x4.rank)
  reducesTo_S600000x4_S_d0_1 : S600000x4.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S3x128x128 .f32) (main_arg6 : FVec F S3x128 .f32) (main_arg7 : FVec F S128x40 .f32) (main_arg8 : FVec F S40 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S600000x4 .f32) (main_arg2 : IVec S2x600000 32) (main_arg3 : FVec F S3x128x128 .f32) (main_arg4 : FVec F S3x128 .f32) (main_arg5 : FVec F S3x128x128 .f32) (main_arg6 : FVec F S3x128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x4 .f32 := Host.absf main_arg1
  let main_cst_0 : FVec F S_ .f32 := constant S_ .f32 0x7F800000#32
  let main_v5 : FVec F S600000x4 .f32 := broadcastInDim S600000x4 ![] bcast_S_S600000x4 main_cst_0
  let main_v6 : IVec S600000x4 1 := cmpf .olt main_v4 main_v5
  let main_c_1 : IVec S_ 1 := constantI S_ 1 1#1
  let main_v7 : IVec S_ 1 := (fun x v => Host.reduce IntOp.andi x v reducesTo_S600000x4_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_v13 main_v16
-- ==== Kernel.lean ====
abbrev S50000x128 : Shape := ⟨2, ![50000, 128]⟩
abbrev S600000x4 : Shape := ⟨2, ![600000, 4]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 87
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S600000x4, .f32⟩
  | .hbm, ⟨2, _⟩ => ⟨S2x600000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S128x40, .f32⟩
  | .hbm, ⟨8, _⟩ => ⟨S40, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S1x128x128, .f32⟩
  | .hbm, ⟨27, _⟩ => ⟨S128x128, .f32⟩
  | .hbm, ⟨28, _⟩ => ⟨S1x128, .f32⟩
  | .hbm, ⟨29, _⟩ => ⟨S128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S50000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S1x40, .f32⟩
  | .hbm, ⟨86, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x40, .f32⟩
  | .local _ .vmem, ⟨33, _⟩ => ⟨S1x40, .f32⟩
  | .local _ .vmem, ⟨34, _⟩ => ⟨S2000x40, .f32⟩
  | .local _ .vmem, ⟨35, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_4 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .f32 = 32 ∨ (Rect.block (s := S50000x40) S2000x40.size (cc3_transform_3 i) (hinb3_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000x4 : Shape := ⟨2, ![600000, 4]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x40 : Shape := ⟨2, ![50000, 40]⟩
abbrev S1x40 : Shape := ⟨2, ![1, 40]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x4, .f32⟩
  | .hbm, ⟨2, _⟩ => ⟨S2x600000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S128x40, .f32⟩
  | .hbm, ⟨8, _⟩ => ⟨S40, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S50000x128, .f32⟩
  | .hbm, ⟨27, _⟩ => ⟨S1x128x128, .f32⟩
  | .hbm, ⟨28, _⟩ => ⟨S128x128, .f32⟩
  | .hbm, ⟨29, _⟩ => ⟨S50000x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S1x128x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .hbm, ⟨63, _⟩ => ⟨S1x128x128, .f32⟩
  | .hbm, ⟨64, _⟩ => ⟨S128x128, .f32⟩
  | .hbm, ⟨65, _⟩ => ⟨S50000x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S_, .f32⟩
  | .hbm, ⟨95, _⟩ => ⟨S50000x128, .f32⟩
  | .hbm, ⟨96, _⟩ => ⟨S600000x1, .i32⟩
  | .hbm, ⟨97, _⟩ => ⟨S50000x128, .f32⟩
  | .hbm, ⟨98, _⟩ => ⟨S50000x128, .f32⟩
  | .hbm, ⟨99, _⟩ => ⟨S1x128x128, .f32⟩
  | .hbm, ⟨100, _⟩ => ⟨S128x128, .f32⟩
  | .hbm, ⟨101, _⟩ => ⟨S50000x128, .f32⟩
  | .hbm, ⟨102, _⟩ => ⟨S1x128, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S1x128x128, .f32⟩
  | .hbm, ⟨111, _⟩ => ⟨S128x128, .f32⟩
  | .hbm, ⟨112, _⟩ => ⟨S50000x128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | .hbm, ⟨121, _⟩ => ⟨S50000x40, .f32⟩
  | .hbm, ⟨122, _⟩ => ⟨S1x40, .f32⟩
  | .hbm, ⟨123, _⟩ => ⟨S50000x40, .f32⟩
  | .hbm, ⟨124, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩
abbrev main_c_1 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call2_cst : Ref sig .tc := ⟨.hbm, 71, rfl⟩
abbrev main_call2_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call3_cst : Ref sig .tc := ⟨.hbm, 82, rfl⟩
abbrev main_call3_v0 : Ref sig .tc := ⟨.hbm, 83, rfl⟩
abbrev main_v61 : Ref sig .tc := ⟨.hbm, 84, rfl⟩
abbrev main_c_4 : Ref sig .tc := ⟨.hbm, 85, rfl⟩
abbrev main_v62 : Ref sig .tc := ⟨.hbm, 86, rfl⟩
abbrev main_v63 : Ref sig .tc := ⟨.hbm, 87, rfl⟩
abbrev main_c_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call4_cst : Ref sig .tc := ⟨.hbm, 107, rfl⟩
abbrev main_call4_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call5_cst : Ref sig .tc := ⟨.hbm, 118, rfl⟩
abbrev main_call5_v0 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«153685_j44908178047327_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.Spec.lean ====
/- The graph network's arithmetic on arrays of extended reals, stated once for both programs.
   A dense layer is x W + b with the bias laid along every row; a rectifier is the entrywise maximum with zero;
   one round of the network applies two rectified dense layers to h + agg, where agg is the neighbour sum of h;
   the classifier is one more dense layer. Every entry of a dense layer's result depends on one row of its
   input only, which is why a block of rows can be computed from the matching block of rows. -/
import Idealize.ShloMosaic.Lib.ValueIdx
import Idealize.ShloMosaic.PureOps.Ideal.Laws
import proofs.«153685_j44908178047327_1_alg».proof.Proof.LibMatProd

noncomputable section

open scoped BigOperators

namespace Cert.Gin

open Idealize.ShloMosaic Idealize.ShloMosaic.ValueIdx Cert.MatProd

/-- The entrywise maximum with zero. -/
def relu {S : Shape} (z : FVec Ideal S .f32) : FVec Ideal S .f32 :=
  fun i => max (z i) (FloatOps.ofBits (F := Ideal) .f32 0x00000000#32)

/-- x W + b, the vector b added to every row of the product. -/
def dense {m k n : Nat} (z : FVec Ideal ⟨2, ![m, k]⟩ .f32) (w : FVec Ideal ⟨2, ![k, n]⟩ .f32)
    (b : FVec Ideal ⟨1, ![n]⟩ .f32) : FVec Ideal ⟨2, ![m, n]⟩ .f32 :=
  fun i => matProd z w i + b (ix1 (i 1))

/-- Two rectified dense layers. -/
def mlp {m k n p : Nat} (z : FVec Ideal ⟨2, ![m, k]⟩ .f32) (w1 : FVec Ideal ⟨2, ![k, n]⟩ .f32)
    (b1 : FVec Ideal ⟨1, ![n]⟩ .f32) (w2 : FVec Ideal ⟨2, ![n, p]⟩ .f32) (b2 : FVec Ideal ⟨1, ![p]⟩ .f32) :
    FVec Ideal ⟨2, ![m, p]⟩ .f32 :=
  relu (dense (relu (dense z w1 b1)) w2 b2)

/-- The entries of a one-row matrix, as a vector. -/
def rowOf {n : Nat} (b : FVec Ideal ⟨2, ![1, n]⟩ .f32) : FVec Ideal ⟨1, ![n]⟩ .f32 :=
  fun j => b (ix2 (0 : Fin 1) (j 0))

theorem relu_apply {S : Shape} (z : FVec Ideal S .f32) (i : S.Idx) :
    relu z i = max (z i) (FloatOps.ofBits (F := Ideal) .f32 0x00000000#32) := rfl

theorem dense_ix2 {m k n : Nat} (z : FVec Ideal ⟨2, ![m, k]⟩ .f32) (w : FVec Ideal ⟨2, ![k, n]⟩ .f32)
    (b : FVec Ideal ⟨1, ![n]⟩ .f32) (a : Fin m) (q : Fin n) :
    dense z w b (ix2 a q) = (∑ c : Fin k, z (ix2 a c) * w (ix2 c q)) + b (ix1 q) := rfl

/-- A dense layer reads one row: if row a of z is row a' of z', entry (a, q) of the one is entry (a', q) of the
    other. -/
theorem dense_row {m m' k n : Nat} (z : FVec Ideal ⟨2, ![m, k]⟩ .f32) (z' : FVec Ideal ⟨2, ![m', k]⟩ .f32)
    (w : FVec Ideal ⟨2, ![k, n]⟩ .f32) (b : FVec Ideal ⟨1, ![n]⟩ .f32) (a : Fin m) (a' : Fin m')
    (h : ∀ c : Fin k, z (ix2 a c) = z' (ix2 a' c)) (q : Fin n) :
    dense z w b (ix2 a q) = dense z' w b (ix2 a' q) := by
  rw [dense_ix2, dense_ix2]
  exact congrArg (· + b (ix1 q)) (Finset.sum_congr rfl fun c _ => by rw [h c])

/-- The two-layer block reads one row as well. -/
theorem mlp_row {m m' k n p : Nat} (z : FVec Ideal ⟨2, ![m, k]⟩ .f32) (z' : FVec Ideal ⟨2, ![m', k]⟩ .f32)
    (w1 : FVec Ideal ⟨2, ![k, n]⟩ .f32) (b1 : FVec Ideal ⟨1, ![n]⟩ .f32) (w2 : FVec Ideal ⟨2, ![n, p]⟩ .f32)
    (b2 : FVec Ideal ⟨1, ![p]⟩ .f32) (a : Fin m) (a' : Fin m')
    (h : ∀ c : Fin k, z (ix2 a c) = z' (ix2 a' c)) (q : Fin p) :
    mlp z w1 b1 w2 b2 (ix2 a q) = mlp z' w1 b1 w2 b2 (ix2 a' q) := by
  unfold mlp
  rw [relu_apply, relu_apply]
  refine congrArg (max · _) ?_
  refine dense_row _ _ w2 b2 a a' (fun c => ?_) q
  rw [relu_apply, relu_apply]
  exact congrArg (max · _) (dense_row z z' w1 b1 a a' h c)

/-- The node features: 50000 nodes, 128 channels. -/
abbrev NodeFeat : Type := FVec Ideal ⟨2, ![50000, 128]⟩ .f32

/-- One round: the two-layer block applied to h + agg h, where agg sums each node's neighbours' rows of h. -/
def round (agg : NodeFeat → NodeFeat) (h : NodeFeat) (w1 : FVec Ideal ⟨2, ![128, 128]⟩ .f32)
    (b1 : FVec Ideal ⟨1, ![128]⟩ .f32) (w2 : FVec Ideal ⟨2, ![128, 128]⟩ .f32) (b2 : FVec Ideal ⟨1, ![128]⟩ .f32) :
    NodeFeat :=
  mlp (addf h (agg h)) w1 b1 w2 b2

/-- Three rounds, each with its own weights, then the classifier's dense layer. -/
def net (agg : NodeFeat → NodeFeat) (x : NodeFeat)
    (w1a : FVec Ideal ⟨2, ![128, 128]⟩ .f32) (b1a : FVec Ideal ⟨1, ![128]⟩ .f32)
    (w2a : FVec Ideal ⟨2, ![128, 128]⟩ .f32) (b2a : FVec Ideal ⟨1, ![128]⟩ .f32)
    (w1b : FVec Ideal ⟨2, ![128, 128]⟩ .f32) (b1b : FVec Ideal ⟨1, ![128]⟩ .f32)
    (w2b : FVec Ideal ⟨2, ![128, 128]⟩ .f32) (b2b : FVec Ideal ⟨1, ![128]⟩ .f32)
    (w1c : FVec Ideal ⟨2, ![128, 128]⟩ .f32) (b1c : FVec Ideal ⟨1, ![128]⟩ .f32)
    (w2c : FVec Ideal ⟨2, ![128, 128]⟩ .f32) (b2c : FVec Ideal ⟨1, ![128]⟩ .f32)
    (wc : FVec Ideal ⟨2, ![128, 40]⟩ .f32) (bc : FVec Ideal ⟨1, ![40]⟩ .f32) :
    FVec Ideal ⟨2, ![50000, 40]⟩ .f32 :=
  dense (round agg (round agg (round agg x w1a b1a w2a b2a) w1b b1b w2b b2b) w1c b1c w2c b2c) wc bc

end Cert.Gin

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.RegionValue0.lean ====
/- Region 0 of the program: 25 grid points, point t computing rows 2000 t … 2000 t + 1999 of the two-layer block
   from the same rows of h and of the neighbour sum and from the whole weight matrices and bias rows. Every entry of
   the block depends on one row only, so the blocks are the row blocks of ONE array, the two-layer block of the whole
   arrays, and they tile it: that array is what the region leaves. -/
import proofs.«153685_j44908178047327_1_alg».proof.Proof.Gen.KernelIdeal.Frame
import proofs.«153685_j44908178047327_1_alg».proof.Proof.Spec
import proofs.«153685_j44908178047327_1_alg».proof.Proof.LibBiasRow
import Idealize.ShloMosaic.Lib.Pipeline.Value
import Idealize.ShloMosaic.Lib.ValueIdx
import Idealize.ShloMosaic.PureOps.Ideal.Laws

set_option maxRecDepth 16384

noncomputable section

namespace Cert.KernelIdeal.RegVal0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A product into the zero accumulator over the program's rows-by-columns record is the matrix product. -/
theorem prodZero {φ₁ φ₂ : FTy} (A : FVec Ideal S2000x128 φ₁) (B : FVec Ideal S128x128 φ₂) :
    matmul dot_S2000x128_S128x128_S2000x128_1_0_0_1_n_n none A B (constant (F := Ideal) S2000x128 .f32 0x00000000#32)
      = Cert.MatProd.matProd A B :=
  Cert.MatProd.matmulZero_eq _ none A B

/-- A one-row matrix laid down the rows reads, at (r, q), the row's entry q. -/
theorem rows_apply (b : FVec Ideal S1x128 .f32) (r : Fin 2000) (q : Fin 128) :
    broadcastTo S2000x128 b broadcasts_S1x128_S2000x128 (ix2 r q) = Cert.Gin.rowOf b (ix1 q) := by
  refine broadcastTo_apply b broadcasts_S1x128_S2000x128 (ix2 r q) (ix2 (0 : Fin 1) q) ?_
  intro ax
  match ax with
  | ⟨0, _⟩ => rfl
  | ⟨1, _⟩ => rfl

/-- One layer as the body spells it: the product into zero, plus the bias row laid down the rows, rectified against a
    block of zeros, is the rectified dense layer. -/
theorem layer {φ₁ φ₂ : FTy} (z : FVec Ideal S2000x128 φ₁) (w : FVec Ideal S128x128 φ₂) (b : FVec Ideal S1x128 .f32) :
    maximumf (addf (matmul dot_S2000x128_S128x128_S2000x128_1_0_0_1_n_n none z w (constant (F := Ideal) S2000x128 .f32 0x00000000#32))
        (broadcastTo S2000x128 b broadcasts_S1x128_S2000x128))
      (broadcast S2000x128 (Scalar.ofBits (F := Ideal) .f32 0x00000000#32))
      = Cert.Gin.relu (Cert.Gin.dense z w (Cert.Gin.rowOf b)) := by
  funext i
  obtain ⟨r, q, rfl⟩ : ∃ (r : Fin 2000) (q : Fin 128), i = ix2 r q := ⟨i 0, i 1, eq_ix2 i⟩
  rw [prodZero]
  show max (Cert.MatProd.matProd z w (ix2 r q) + broadcastTo S2000x128 b broadcasts_S1x128_S2000x128 (ix2 r q)) _
    = max (Cert.MatProd.matProd z w (ix2 r q) + Cert.Gin.rowOf b (ix1 q)) _
  rw [rows_apply]
  rfl

/-- The body's arithmetic on its six blocks: the two-layer block of the sum of the first two. A cast to the same shape
    and a rounding to a narrower format change nothing over the extended reals. -/
theorem payload (x0 x1 : Vec Ideal S2000x128 .f32) (w1 w2 : Vec Ideal S128x128 .f32) (b1 b2 : Vec Ideal S1x128 .f32) :
    k0_pay1 x0 x1 w1 b1 w2 b2 = Cert.Gin.mlp (addf x0 x1) w1 (Cert.Gin.rowOf b1) w2 (Cert.Gin.rowOf b2) := by
  unfold k0_pay1
  simp only [shapeCast_self]
  rw [layer, layer]
  rfl

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps over the grid: the row-block windows sit at block (t, 0), the whole-array windows at (0, 0). -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row r of point t's block is row 2000 t + r of the array, which the array has. -/
theorem row_lt (t : Fin cfg0.N) (r : Fin 2000) : t.val * 2000 + r.val < 50000 := by
  have hN : cfg0.N = 25 := N_0
  have := t.isLt
  have := r.isLt
  omega

/-- Window 0's block at point t: rows 2000 t … of h. -/
theorem blk_h (c : Dev nD) (t : Fin cfg0.N) (r : Fin 2000) (k : Fin 128) :
    (iblk0 V c 0 t : Vec Ideal S2000x128 .f32) (ix2 r k)
      = (V c main_arg0 : Vec Ideal S50000x128 .f32) (ix2 ⟨t.val * 2000 + r.val, row_lt t r⟩ k) := by
  obtain ⟨-, -, e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- Window 1's block at point t: rows 2000 t … of the neighbour sum. -/
theorem blk_agg (c : Dev nD) (t : Fin cfg0.N) (r : Fin 2000) (k : Fin 128) :
    (iblk0 V c 1 t : Vec Ideal S2000x128 .f32) (ix2 r k)
      = (V c main_v13 : Vec Ideal S50000x128 .f32) (ix2 ⟨t.val * 2000 + r.val, row_lt t r⟩ k) := by
  obtain ⟨-, -, -, -, e0, e1, -⟩ := idx_facts t
  unfold iblk0
  rw [View.read_apply]
  show V c main_v13 _ = V c main_v13 _
  congr 1
  funext a
  apply Fin.ext
  match a with
  | ⟨0, _⟩ => show win0_1.index t (0 : Fin 2) * 2000 + 1 * r.val = t.val * 2000 + r.val; rw [e0]; omega
  | ⟨1, _⟩ => show win0_1.index t (1 : Fin 2) * 128 + 1 * k.val = k.val; rw [e1]; omega

/-- Window 2's block at any point is the whole first weight matrix. -/
theorem blk_w1 (c : Dev nD) (t : Fin cfg0.N) : (iblk0 V c 2 t : Vec Ideal S128x128 .f32) = V c main_v15 := by
  obtain ⟨-, -, -, -, -, -, e0, e1, -⟩ := idx_facts t
  funext y
  unfold iblk0
  rw [View.read_apply]
  show V c main_v15 _ = V c main_v15 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 3's block at any point is the whole first bias row. -/
theorem blk_b1 (c : Dev nD) (t : Fin cfg0.N) : (iblk0 V c 3 t : Vec Ideal S1x128 .f32) = V c main_v22 := by
  obtain ⟨-, -, -, -, -, -, -, -, e0, e1, -⟩ := idx_facts t
  funext y
  unfold iblk0
  rw [View.read_apply]
  show V c main_v22 _ = V c main_v22 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Window 4's block at any point is the whole second weight matrix. -/
theorem blk_w2 (c : Dev nD) (t : Fin cfg0.N) : (iblk0 V c 4 t : Vec Ideal S128x128 .f32) = V c main_v19 := by
  obtain ⟨-, -, -, -, -, -, -, -, -, -, e0, e1, -⟩ := idx_facts t
  funext y
  unfold iblk0
  rw [View.read_apply]
  show V c main_v19 _ = V c main_v19 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5's block at any point is the whole second bias row. -/
theorem blk_b2 (c : Dev nD) (t : Fin cfg0.N) : (iblk0 V c 5 t : Vec Ideal S1x128 .f32) = V c main_v23 := by
  obtain ⟨-, -, -, -, -, -, -, -, -, -, -, -, e0, e1⟩ := idx_facts t
  funext y
  unfold iblk0
  rw [View.read_apply]
  show V c main_v23 _ = V c main_v23 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The two-layer block of the whole arrays the region finds: what the output array ends holding. -/
abbrev whole (c : Dev nD) : Vec Ideal S50000x128 .f32 :=
  Cert.Gin.mlp (addf (V c main_arg0 : Vec Ideal S50000x128 .f32) (V c main_v13 : Vec Ideal S50000x128 .f32))
    (V c main_v15 : Vec Ideal S128x128 .f32) (Cert.Gin.rowOf (V c main_v22 : Vec Ideal S1x128 .f32))
    (V c main_v19 : Vec Ideal S128x128 .f32) (Cert.Gin.rowOf (V c main_v23 : Vec Ideal S1x128 .f32))

/-- What point t writes back is rows 2000 t … 2000 t + 1999 of the two-layer block of the whole arrays: an entry of
    the two-layer block depends on one row of its input, and row r of the point's blocks is row 2000 t + r of the arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero zeroOff]
  simp only [View.ld_unit_zero (S := S2000x128) zeroOff, View.ld_unit_zero (S := S128x128) zeroOff,
    View.ld_unit_zero (S := S1x128) zeroOff]
  rw [payload, blk_w1, blk_b1, blk_w2, blk_b2]
  obtain ⟨e0, e1, -⟩ := idx_facts t
  funext j
  obtain ⟨r, q, rfl⟩ : ∃ (r : Fin 2000) (q : Fin 128), j = ix2 r q := ⟨j 0, j 1, eq_ix2 j⟩
  show Cert.Gin.mlp (addf (iblk0 V c 0 t : Vec Ideal S2000x128 .f32) (iblk0 V c 1 t : Vec Ideal S2000x128 .f32))
      (V c main_v15 : Vec Ideal S128x128 .f32) (Cert.Gin.rowOf (V c main_v22 : Vec Ideal S1x128 .f32))
      (V c main_v19 : Vec Ideal S128x128 .f32) (Cert.Gin.rowOf (V c main_v23 : Vec Ideal S1x128 .f32)) (ix2 r q)
    = whole V c (((cfg0.win 6).blk t).view.emb (ix2 r q))
  have hemb : ((cfg0.win 6).blk t).view.emb (ix2 r q) = ix2 ⟨t.val * 2000 + r.val, row_lt t r⟩ q := by
    funext a
    apply Fin.ext
    match a with
    | ⟨0, _⟩ => show win0_6.index t (0 : Fin 2) * 2000 + 1 * r.val = t.val * 2000 + r.val; rw [e0]; omega
    | ⟨1, _⟩ => show win0_6.index t (1 : Fin 2) * 128 + 1 * q.val = q.val; rw [e1]; omega
  rw [hemb]
  exact Cert.Gin.mlp_row _ _ _ _ _ _ r ⟨t.val * 2000 + r.val, row_lt t r⟩
    (fun k => by rw [addf_apply, addf_apply, blk_h, blk_agg]) q

/-- An index of the array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v24).slice (win0_6.rect t)).set ↔ _
  rw [View.set_slice_whole, Rect.mem_set_unit]
  exact Iff.rfl

/-- The 25 row blocks tile the array: row i lies in the block of point i / 2000, and every point writes back. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨e0, e1, -⟩ := idx_facts t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-- What region 0 leaves in its output array, in terms of the arrays it finds. -/
theorem region0_value (c : Dev nD) :
    ((dat0 (F := Ideal) V c).arrAt 6 cfg0.N : Vec Ideal S50000x128 .f32)
      = Cert.Gin.mlp (addf (V c main_arg0 : Vec Ideal S50000x128 .f32) (V c main_v13 : Vec Ideal S50000x128 .f32))
          (V c main_v15 : Vec Ideal S128x128 .f32) (Cert.Gin.rowOf (V c main_v22 : Vec Ideal S1x128 .f32))
          (V c main_v19 : Vec Ideal S128x128 .f32) (Cert.Gin.rowOf (V c main_v23 : Vec Ideal S1x128 .f32)) :=
  (dat0 V c).arrAt_eq_of_cover 6 (whole V c) (fun t _ => flushed_eq V c t) cover

end Cert.KernelIdeal.RegVal0

end
-- ==== Proof.RegionValue1.lean ====
/- Region 1 of the program: 25 grid points, point t computing rows 2000 t … 2000 t + 1999 of the two-layer block
   from the same rows of h and of the neighbour sum and from the whole weight matrices and bias rows. Every entry of
   the block depends on one row only, so the blocks are the row blocks of ONE array, the two-layer block of the whole
   arrays, and they tile it: that array is what the region leaves. -/
import proofs.«153685_j44908178047327_1_alg».proof.Proof.Gen.KernelIdeal.Frame
import proofs.«153685_j44908178047327_1_alg».proof.Proof.Spec
import proofs.«153685_j44908178047327_1_alg».proof.Proof.LibBiasRow
import Idealize.ShloMosaic.Lib.Pipeline.Value
import Idealize.ShloMosaic.Lib.ValueIdx
import Idealize.ShloMosaic.PureOps.Ideal.Laws

set_option maxRecDepth 16384

noncomputable section

namespace Cert.KernelIdeal.RegVal1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A product into the zero accumulator over the program's rows-by-columns record is the matrix product. -/
theorem prodZero {φ₁ φ₂ : FTy} (A : FVec Ideal S2000x128 φ₁) (B : FVec Ideal S128x128 φ₂) :
    matmul dot_S2000x128_S128x128_S2000x128_1_0_0_1_n_n none A B (constant (F := Ideal) S2000x128 .f32 0x00000000#32)
      = Cert.MatProd.matProd A B :=
  Cert.MatProd.matmulZero_eq _ none A B

/-- A one-row matrix laid down the rows reads, at (r, q), the row's entry q. -/
theorem rows_apply (b : FVec Ideal S1x128 .f32) (r : Fin 2000) (q : Fin 128) :
    broadcastTo S2000x128 b broadcasts_S1x128_S2000x128 (ix2 r q) = Cert.Gin.rowOf b (ix1 q) := by
  refine broadcastTo_apply b broadcasts_S1x128_S2000x128 (ix2 r q) (ix2 (0 : Fin 1) q) ?_
  intro ax
  match ax with
  | ⟨0, _⟩ => rfl
  | ⟨1, _⟩ => rfl

/-- One layer as the body spells it: the product into zero, plus the bias row laid down the rows, rectified against a
    block of zeros, is the rectified dense layer. -/
theorem layer {φ₁ φ₂ : FTy} (z : FVec Ideal S2000x128 φ₁) (w : FVec Ideal S128x128 φ₂) (b : FVec Ideal S1x128 .f32) :
    maximumf (addf (matmul dot_S2000x128_S128x128_S2000x128_1_0_0_1_n_n none z w (constant (F := Ideal) S2000x128 .f32 0x00000000#32))
        (broadcastTo S2000x128 b broadcasts_S1x128_S2000x128))
      (broadcast S2000x128 (Scalar.ofBits (F := Ideal) .f32 0x00000000#32))
      = Cert.Gin.relu (Cert.Gin.dense z w (Cert.Gin.rowOf b)) := by
  funext i
  obtain ⟨r, q, rfl⟩ : ∃ (r : Fin 2000) (q : Fin 128), i = ix2 r q := ⟨i 0, i 1, eq_ix2 i⟩
  rw [prodZero]
  show max (Cert.MatProd.matProd z w (ix2 r q) + broadcastTo S2000x128 b broadcasts_S1x128_S2000x128 (ix2 r q)) _
    = max (Cert.MatProd.matProd z w (ix2 r q) + Cert.Gin.rowOf b (ix1 q)) _
  rw [rows_apply]
  rfl

/-- The body's arithmetic on its six blocks: the two-layer block of the sum of the first two. A cast to the same shape
    and a rounding to a narrower format change nothing over the extended reals. -/
theorem payload (x0 x1 : Vec Ideal S2000x128 .f32) (w1 w2 : Vec Ideal S128x128 .f32) (b1 b2 : Vec Ideal S1x128 .f32) :
    k1_pay1 x0 x1 w1 b1 w2 b2 = Cert.Gin.mlp (addf x0 x1) w1 (Cert.Gin.rowOf b1) w2 (Cert.Gin.rowOf b2) := by
  unfold k1_pay1
  simp only [shapeCast_self]
  rw [layer, layer]
  rfl

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps over the grid: the row-block windows sit at block (t, 0), the whole-array windows at (0, 0). -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row r of point t's block is row 2000 t + r of the array, which the array has. -/
theorem row_lt (t : Fin cfg1.N) (r : Fin 2000) : t.val * 2000 + r.val < 50000 := by
  have hN : cfg1.N = 25 := N_1
  have := t.isLt
  have := r.isLt
  omega

/-- Window 0's block at point t: rows 2000 t … of h. -/
theorem blk_h (c : Dev nD) (t : Fin cfg1.N) (r : Fin 2000) (k : Fin 128) :
    (iblk1 V c 0 t : Vec Ideal S2000x128 .f32) (ix2 r k)
      = (V c main_v24 : Vec Ideal S50000x128 .f32) (ix2 ⟨t.val * 2000 + r.val, row_lt t r⟩ k) := by
  obtain ⟨-, -, e0, e1, -⟩ := idx_facts t
  unfold iblk1
  rw [View.read_apply]
  show V c main_v24 _ = V c main_v24 _
  congr 1
  funext a
  apply Fin.ext
  match a with
  | ⟨0, _⟩ => show win1_0.index t (0 : Fin 2) * 2000 + 1 * r.val = t.val * 2000 + r.val; rw [e0]; omega
  | ⟨1, _⟩ => show win1_0.index t (1 : Fin 2) * 128 + 1 * k.val = k.val; rw [e1]; omega

/-- Window 1's block at point t: rows 2000 t … of the neighbour sum. -/
theorem blk_agg (c : Dev nD) (t : Fin cfg1.N) (r : Fin 2000) (k : Fin 128) :
    (iblk1 V c 1 t : Vec Ideal S2000x128 .f32) (ix2 r k)
      = (V c main_v34 : Vec Ideal S50000x128 .f32) (ix2 ⟨t.val * 2000 + r.val, row_lt t r⟩ k) := by
  obtain ⟨-, -, -, -, e0, e1, -⟩ := idx_facts t
  unfold iblk1
  rw [View.read_apply]
  show V c main_v34 _ = V c main_v34 _
  congr 1
  funext a
  apply Fin.ext
  match a with
  | ⟨0, _⟩ => show win1_1.index t (0 : Fin 2) * 2000 + 1 * r.val = t.val * 2000 + r.val; rw [e0]; omega
  | ⟨1, _⟩ => show win1_1.index t (1 : Fin 2) * 128 + 1 * k.val = k.val; rw [e1]; omega

/-- Window 2's block at any point is the whole first weight matrix. -/
theorem blk_w1 (c : Dev nD) (t : Fin cfg1.N) : (iblk1 V c 2 t : Vec Ideal S128x128 .f32) = V c main_v36 := by
  obtain ⟨-, -, -, -, -, -, e0, e1, -⟩ := idx_facts t
  funext y
  unfold iblk1
  rw [View.read_apply]
  show V c main_v36 _ = V c main_v36 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- Window 3's block at any point is the whole first bias row. -/
theorem blk_b1 (c : Dev nD) (t : Fin cfg1.N) : (iblk1 V c 3 t : Vec Ideal S1x128 .f32) = V c main_v43 := by
  obtain ⟨-, -, -, -, -, -, -, -, e0, e1, -⟩ := idx_facts t
  funext y
  unfold iblk1
  rw [View.read_apply]
  show V c main_v43 _ = V c main_v43 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- Window 4's block at any point is the whole second weight matrix. -/
theorem blk_w2 (c : Dev nD) (t : Fin cfg1.N) : (iblk1 V c 4 t : Vec Ideal S128x128 .f32) = V c main_v40 := by
  obtain ⟨-, -, -, -, -, -, -, -, -, -, e0, e1, -⟩ := idx_facts t
  funext y
  unfold iblk1
  rw [View.read_apply]
  show V c main_v40 _ = V c main_v40 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5's block at any point is the whole second bias row. -/
theorem blk_b2 (c : Dev nD) (t : Fin cfg1.N) : (iblk1 V c 5 t : Vec Ideal S1x128 .f32) = V c main_v44 := by
  obtain ⟨-, -, -, -, -, -, -, -, -, -, -, -, e0, e1⟩ := idx_facts t
  funext y
  unfold iblk1
  rw [View.read_apply]
  show V c main_v44 _ = V c main_v44 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- The two-layer block of the whole arrays the region finds: what the output array ends holding. -/
abbrev whole (c : Dev nD) : Vec Ideal S50000x128 .f32 :=
  Cert.Gin.mlp (addf (V c main_v24 : Vec Ideal S50000x128 .f32) (V c main_v34 : Vec Ideal S50000x128 .f32))
    (V c main_v36 : Vec Ideal S128x128 .f32) (Cert.Gin.rowOf (V c main_v43 : Vec Ideal S1x128 .f32))
    (V c main_v40 : Vec Ideal S128x128 .f32) (Cert.Gin.rowOf (V c main_v44 : Vec Ideal S1x128 .f32))

/-- What point t writes back is rows 2000 t … 2000 t + 1999 of the two-layer block of the whole arrays: an entry of
    the two-layer block depends on one row of its input, and row r of the point's blocks is row 2000 t + r of the arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero zeroOff]
  simp only [View.ld_unit_zero (S := S2000x128) zeroOff, View.ld_unit_zero (S := S128x128) zeroOff,
    View.ld_unit_zero (S := S1x128) zeroOff]
  rw [payload, blk_w1, blk_b1, blk_w2, blk_b2]
  obtain ⟨e0, e1, -⟩ := idx_facts t
  funext j
  obtain ⟨r, q, rfl⟩ : ∃ (r : Fin 2000) (q : Fin 128), j = ix2 r q := ⟨j 0, j 1, eq_ix2 j⟩
  show Cert.Gin.mlp (addf (iblk1 V c 0 t : Vec Ideal S2000x128 .f32) (iblk1 V c 1 t : Vec Ideal S2000x128 .f32))
      (V c main_v36 : Vec Ideal S128x128 .f32) (Cert.Gin.rowOf (V c main_v43 : Vec Ideal S1x128 .f32))
      (V c main_v40 : Vec Ideal S128x128 .f32) (Cert.Gin.rowOf (V c main_v44 : Vec Ideal S1x128 .f32)) (ix2 r q)
    = whole V c (((cfg1.win 6).blk t).view.emb (ix2 r q))
  have hemb : ((cfg1.win 6).blk t).view.emb (ix2 r q) = ix2 ⟨t.val * 2000 + r.val, row_lt t r⟩ q := by
    funext a
    apply Fin.ext
    match a with
    | ⟨0, _⟩ => show win1_6.index t (0 : Fin 2) * 2000 + 1 * r.val = t.val * 2000 + r.val; rw [e0]; omega
    | ⟨1, _⟩ => show win1_6.index t (1 : Fin 2) * 128 + 1 * q.val = q.val; rw [e1]; omega
  rw [hemb]
  exact Cert.Gin.mlp_row _ _ _ _ _ _ r ⟨t.val * 2000 + r.val, row_lt t r⟩
    (fun k => by rw [addf_apply, addf_apply, blk_h, blk_agg]) q

/-- An index of the array is in point t's block iff each coordinate is in the block's range on its axis. -/
theorem mem_blk (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v45).slice (win1_6.rect t)).set ↔ _
  rw [View.set_slice_whole, Rect.mem_set_unit]
  exact Iff.rfl

/-- The 25 row blocks tile the array: row i lies in the block of point i / 2000, and every point writes back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e0, e1, -⟩ := idx_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 128 ≤ (i 1).val ∧ (i 1).val < win1_6.index t (1 : Fin 2) * 128 + 128
    rw [e1]; omega

/-- What region 1 leaves in its output array, in terms of the arrays it finds. -/
theorem region1_value (c : Dev nD) :
    ((dat1 (F := Ideal) V c).arrAt 6 cfg1.N : Vec Ideal S50000x128 .f32)
      = Cert.Gin.mlp (addf (V c main_v24 : Vec Ideal S50000x128 .f32) (V c main_v34 : Vec Ideal S50000x128 .f32))
          (V c main_v36 : Vec Ideal S128x128 .f32) (Cert.Gin.rowOf (V c main_v43 : Vec Ideal S1x128 .f32))
          (V c main_v40 : Vec Ideal S128x128 .f32) (Cert.Gin.rowOf (V c main_v44 : Vec Ideal S1x128 .f32)) :=
  (dat1 V c).arrAt_eq_of_cover 6 (whole V c) (fun t _ => flushed_eq V c t) cover

end Cert.KernelIdeal.RegVal1

end
-- ==== Proof.RegionValue2.lean ====
/- Region 2 of the program: 25 grid points, point t computing rows 2000 t … 2000 t + 1999 of the two-layer block
   from the same rows of h and of the neighbour sum and from the whole weight matrices and bias rows. Every entry of
   the block depends on one row only, so the blocks are the row blocks of ONE array, the two-layer block of the whole
   arrays, and they tile it: that array is what the region leaves. -/
import proofs.«153685_j44908178047327_1_alg».proof.Proof.Gen.KernelIdeal.Frame
import proofs.«153685_j44908178047327_1_alg».proof.Proof.Spec
import proofs.«153685_j44908178047327_1_alg».proof.Proof.LibBiasRow
import Idealize.ShloMosaic.Lib.Pipeline.Value
import Idealize.ShloMosaic.Lib.ValueIdx
import Idealize.ShloMosaic.PureOps.Ideal.Laws

set_option maxRecDepth 16384

noncomputable section

namespace Cert.KernelIdeal.RegVal2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A product into the zero accumulator over the program's rows-by-columns record is the matrix product. -/
theorem prodZero {φ₁ φ₂ : FTy} (A : FVec Ideal S2000x128 φ₁) (B : FVec Ideal S128x128 φ₂) :
    matmul dot_S2000x128_S128x128_S2000x128_1_0_0_1_n_n none A B (constant (F := Ideal) S2000x128 .f32 0x00000000#32)
      = Cert.MatProd.matProd A B :=
  Cert.MatProd.matmulZero_eq _ none A B

/-- A one-row matrix laid down the rows reads, at (r, q), the row's entry q. -/
theorem rows_apply (b : FVec Ideal S1x128 .f32) (r : Fin 2000) (q : Fin 128) :
    broadcastTo S2000x128 b broadcasts_S1x128_S2000x128 (ix2 r q) = Cert.Gin.rowOf b (ix1 q) := by
  refine broadcastTo_apply b broadcasts_S1x128_S2000x128 (ix2 r q) (ix2 (0 : Fin 1) q) ?_
  intro ax
  match ax with
  | ⟨0, _⟩ => rfl
  | ⟨1, _⟩ => rfl

/-- One layer as the body spells it: the product into zero, plus the bias row laid down the rows, rectified against a
    block of zeros, is the rectified dense layer. -/
theorem layer {φ₁ φ₂ : FTy} (z : FVec Ideal S2000x128 φ₁) (w : FVec Ideal S128x128 φ₂) (b : FVec Ideal S1x128 .f32) :
    maximumf (addf (matmul dot_S2000x128_S128x128_S2000x128_1_0_0_1_n_n none z w (constant (F := Ideal) S2000x128 .f32 0x00000000#32))
        (broadcastTo S2000x128 b broadcasts_S1x128_S2000x128))
      (broadcast S2000x128 (Scalar.ofBits (F := Ideal) .f32 0x00000000#32))
      = Cert.Gin.relu (Cert.Gin.dense z w (Cert.Gin.rowOf b)) := by
  funext i
  obtain ⟨r, q, rfl⟩ : ∃ (r : Fin 2000) (q : Fin 128), i = ix2 r q := ⟨i 0, i 1, eq_ix2 i⟩
  rw [prodZero]
  show max (Cert.MatProd.matProd z w (ix2 r q) + broadcastTo S2000x128 b broadcasts_S1x128_S2000x128 (ix2 r q)) _
    = max (Cert.MatProd.matProd z w (ix2 r q) + Cert.Gin.rowOf b (ix1 q)) _
  rw [rows_apply]
  rfl

/-- The body's arithmetic on its six blocks: the two-layer block of the sum of the first two. A cast to the same shape
    and a rounding to a narrower format change nothing over the extended reals. -/
theorem payload (x0 x1 : Vec Ideal S2000x128 .f32) (w1 w2 : Vec Ideal S128x128 .f32) (b1 b2 : Vec Ideal S1x128 .f32) :
    k2_pay1 x0 x1 w1 b1 w2 b2 = Cert.Gin.mlp (addf x0 x1) w1 (Cert.Gin.rowOf b1) w2 (Cert.Gin.rowOf b2) := by
  unfold k2_pay1
  simp only [shapeCast_self]
  rw [layer, layer]
  rfl

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps over the grid: the row-block windows sit at block (t, 0), the whole-array windows at (0, 0). -/
theorem idx_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row r of point t's block is row 2000 t + r of the array, which the array has. -/
theorem row_lt (t : Fin cfg2.N) (r : Fin 2000) : t.val * 2000 + r.val < 50000 := by
  have hN : cfg2.N = 25 := N_2
  have := t.isLt
  have := r.isLt
  omega

/-- Window 0's block at point t: rows 2000 t … of h. -/
theorem blk_h (c : Dev nD) (t : Fin cfg2.N) (r : Fin 2000) (k : Fin 128) :
    (iblk2 V c 0 t : Vec Ideal S2000x128 .f32) (ix2 r k)
      = (V c main_v45 : Vec Ideal S50000x128 .f32) (ix2 ⟨t.val * 2000 + r.val, row_lt t r⟩ k) := by
  obtain ⟨-, -, e0, e1, -⟩ := idx_facts t
  unfold iblk2
  rw [View.read_apply]
  show V c main_v45 _ = V c main_v45 _
  congr 1
  funext a
  apply Fin.ext
  match a with
  | ⟨0, _⟩ => show win2_0.index t (0 : Fin 2) * 2000 + 1 * r.val = t.val * 2000 + r.val; rw [e0]; omega
  | ⟨1, _⟩ => show win2_0.index t (1 : Fin 2) * 128 + 1 * k.val = k.val; rw [e1]; omega

/-- Window 1's block at point t: rows 2000 t … of the neighbour sum. -/
theorem blk_agg (c : Dev nD) (t : Fin cfg2.N) (r : Fin 2000) (k : Fin 128) :
    (iblk2 V c 1 t : Vec Ideal S2000x128 .f32) (ix2 r k)
      = (V c main_v55 : Vec Ideal S50000x128 .f32) (ix2 ⟨t.val * 2000 + r.val, row_lt t r⟩ k) := by
  obtain ⟨-, -, -, -, e0, e1, -⟩ := idx_facts t
  unfold iblk2
  rw [View.read_apply]
  show V c main_v55 _ = V c main_v55 _
  congr 1
  funext a
  apply Fin.ext
  match a with
  | ⟨0, _⟩ => show win2_1.index t (0 : Fin 2) * 2000 + 1 * r.val = t.val * 2000 + r.val; rw [e0]; omega
  | ⟨1, _⟩ => show win2_1.index t (1 : Fin 2) * 128 + 1 * k.val = k.val; rw [e1]; omega

/-- Window 2's block at any point is the whole first weight matrix. -/
theorem blk_w1 (c : Dev nD) (t : Fin cfg2.N) : (iblk2 V c 2 t : Vec Ideal S128x128 .f32) = V c main_v57 := by
  obtain ⟨-, -, -, -, -, -, e0, e1, -⟩ := idx_facts t
  funext y
  unfold iblk2
  rw [View.read_apply]
  show V c main_v57 _ = V c main_v57 y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- Window 3's block at any point is the whole first bias row. -/
theorem blk_b1 (c : Dev nD) (t : Fin cfg2.N) : (iblk2 V c 3 t : Vec Ideal S1x128 .f32) = V c main_v64 := by
  obtain ⟨-, -, -, -, -, -, -, -, e0, e1, -⟩ := idx_facts t
  funext y
  unfold iblk2
  rw [View.read_apply]
  show V c main_v64 _ = V c main_v64 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- Window 4's block at any point is the whole second weight matrix. -/
theorem blk_w2 (c : Dev nD) (t : Fin cfg2.N) : (iblk2 V c 4 t : Vec Ideal S128x128 .f32) = V c main_v61 := by
  obtain ⟨-, -, -, -, -, -, -, -, -, -, e0, e1, -⟩ := idx_facts t
  funext y
  unfold iblk2
  rw [View.read_apply]
  show V c main_v61 _ = V c main_v61 y
  congr 1
  funext a
  apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- Window 5's block at any point is the whole second bias row. -/
theorem blk_b2 (c : Dev nD) (t : Fin cfg2.N) : (iblk2 V c 5 t : Vec Ideal S1x128 .f32) = V c main_v65 := by
  obtain ⟨-, -, -, -, -, -, -, -, -, -, -, -, e0, e1⟩ := idx_facts t
  funext y
  unfold iblk2
  rw [View.read_apply]
  show V c main_v65 _ = V c main_v65 y
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The two-layer block of the whole arrays the region finds: what the output array ends holding. -/
abbrev whole (c : Dev nD) : Vec Ideal S50000x128 .f32 :=
  Cert.Gin.mlp (addf (V c main_v45 : Vec Ideal S50000x128 .f32) (V c main_v55 : Vec Ideal S50000x128 .f32))
    (V c main_v57 : Vec Ideal S128x128 .f32) (Cert.Gin.rowOf (V c main_v64 : Vec Ideal S1x128 .f32))
    (V c main_v61 : Vec Ideal S128x128 .f32) (Cert.Gin.rowOf (V c main_v65 : Vec Ideal S1x128 .f32))

/-- What point t writes back is rows 2000 t … 2000 t + 1999 of the two-layer block of the whole arrays: an entry of
    the two-layer block depends on one row of its input, and row r of the point's blocks is row 2000 t + r of the arrays. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6]
  unfold out2_6
  rw [View.canon_unit_zero zeroOff]
  simp only [View.ld_unit_zero (S := S2000x128) zeroOff, View.ld_unit_zero (S := S128x128) zeroOff,
    View.ld_unit_zero (S := S1x128) zeroOff]
  rw [payload, blk_w1, blk_b1, blk_w2, blk_b2]
  obtain ⟨e0, e1, -⟩ := idx_facts t
  funext j
  obtain ⟨r, q, rfl⟩ : ∃ (r : Fin 2000) (q : Fin 128), j = ix2 r q := ⟨j 0, j 1, eq_ix2 j⟩
  show Cert.Gin.mlp (addf (iblk2 V c 0 t : Vec Ideal S2000x128 .f32) (iblk2 V c 1 t : Vec Ideal S2000x128 .f32))
      (V c main_v57 : Vec Ideal S128x128 .f32) (Cert.Gin.rowOf (V c main_v64 : Vec Ideal S1x128 .f32))
      (V c main_v61 : Vec Ideal S128x128 .f32) (Cert.Gin.rowOf (V c main_v65 : Vec Ideal S1x128 .f32)) (ix2 r q)
    = whole V c (((cfg2.win 6).blk t).view.emb (ix2 r q))
  have hemb : ((cfg2.win 6).blk t).view.emb (ix2 r q) = ix2 ⟨t.val * 2000 + r.val, row_lt t r⟩ q := by
    funext a
    apply Fin.ext
    match a with
    | ⟨0, _⟩ => show win2_6.index t (0 : Fin 2) * 2000 + 1 * r.val = t.val * 2000 + r.val; rw [e0]; omega
    | ⟨1, _⟩ => show win2_6.index t (1 : Fin 2) * 128 + 1 * q.val = q.val; rw [e1]; omega
  rw [hemb]
  exact Cert.Gin.mlp_row _ _ _ _ _ _ r ⟨t.val * 2000 + r.val, row_lt t r⟩
    (fun k => by rw [addf_apply, addf_apply, blk_h, blk_agg]) q

/-- An index of the array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v66).slice (win2_6.rect t)).set ↔ _
  rw [View.set_slice_whole, Rect.mem_set_unit]
  exact Iff.rfl

/-- The 25 row blocks tile the array: row i lies in the block of point i / 2000, and every point writes back. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨e0, e1, -⟩ := idx_facts t
  refine ⟨t, flush2_6 t, ?_⟩
  rw [mem_blk]
  intro a
  match a with
  | ⟨0, _⟩ =>
    show win2_6.index t (0 : Fin 2) * 2000 ≤ (i 0).val ∧ (i 0).val < win2_6.index t (0 : Fin 2) * 2000 + 2000
    rw [e0, ht]; omega
  | ⟨1, _⟩ =>
    show win2_6.index t (1 : Fin 2) * 128 ≤ (i 1).val ∧ (i 1).val < win2_6.index t (1 : Fin 2) * 128 + 128
    rw [e1]; omega

/-- What region 2 leaves in its output array, in terms of the arrays it finds. -/
theorem region2_value (c : Dev nD) :
    ((dat2 (F := Ideal) V c).arrAt 6 cfg2.N : Vec Ideal S50000x128 .f32)
      = Cert.Gin.mlp (addf (V c main_v45 : Vec Ideal S50000x128 .f32) (V c main_v55 : Vec Ideal S50000x128 .f32))
          (V c main_v57 : Vec Ideal S128x128 .f32) (Cert.Gin.rowOf (V c main_v64 : Vec Ideal S1x128 .f32))
          (V c main_v61 : Vec Ideal S128x128 .f32) (Cert.Gin.rowOf (V c main_v65 : Vec Ideal S1x128 .f32)) :=
  (dat2 V c).arrAt_eq_of_cover 6 (whole V c) (fun t _ => flushed_eq V c t) cover

end Cert.KernelIdeal.RegVal2

end
-- ==== Proof.RegionValue3.lean ====
/- Region 3 of the program, the classifier: 25 grid points, point t computing rows 2000 t … 2000 t + 1999 of
   h Wc + bc from the same rows of h, the whole of Wc and the bias row. The blocks are the row blocks of the one dense
   layer of the whole arrays and tile it. -/
import proofs.«153685_j44908178047327_1_alg».proof.Proof.Gen.KernelIdeal.Frame
import proofs.«153685_j44908178047327_1_alg».proof.Proof.Spec
import proofs.«153685_j44908178047327_1_alg».proof.Proof.LibBiasRow
import Idealize.ShloMosaic.Lib.Pipeline.Value
import Idealize.ShloMosaic.Lib.ValueIdx
import Idealize.ShloMosaic.PureOps.Ideal.Laws

set_option maxRecDepth 16384

noncomputable section

namespace Cert.KernelIdeal.RegVal3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The kernel's matmul record into the zero accumulator is the matrix product. -/
theorem product_into_zero (A : FVec Ideal S2000x128 .f32) (B : FVec Ideal S128x40 .f32) :
    matmul dot_S2000x128_S128x40_S2000x40_1_0_0_1_n_n none A B (constant (F := Ideal) S2000x40 .f32 0x00000000#32)
      = Cert.MatProd.matProd A B :=
  Cert.MatProd.matmulZero_eq _ none A B

/-- The body's arithmetic on its loaded blocks is a dense layer: the product into zero plus the bias row laid down
    the rows; narrowing to the shorter format is the identity on extended reals. -/
theorem body_is_dense_layer (x0 : Vec Ideal S2000x128 .f32) (w : Vec Ideal S128x40 .f32) (b : Vec Ideal S1x40 .f32) :
    Gen.k3_pay1 x0 w b = Cert.Gin.dense x0 w (Cert.Gin.rowOf b) := by
  funext i
  obtain ⟨r, q, rfl⟩ : ∃ (r : Fin 2000) (q : Fin 40), i = ix2 r q := ⟨i 0, i 1, eq_ix2 i⟩
  unfold Gen.k3_pay1
  show (matmul dot_S2000x128_S128x40_S2000x40_1_0_0_1_n_n none (shapeCast S2000x128 x0 shapeCasts_S2000x128_S2000x128) w
      (constant (F := Ideal) S2000x40 .f32 0x00000000#32)) (ix2 r q)
    + broadcastTo S2000x40 (shapeCast S1x40 b shapeCasts_S1x40_S1x40) broadcasts_S1x40_S2000x40 (ix2 r q) = _
  rw [shapeCast_self, shapeCast_self]
  refine congrArg₂ (· + ·) (congrFun (product_into_zero x0 w) (ix2 r q)) ?_
  refine broadcastTo_apply b broadcasts_S1x40_S2000x40 (ix2 r q) (ix2 (0 : Fin 1) q) ?_
  intro ax
  match ax with
  | ⟨0, _⟩ => rfl
  | ⟨1, _⟩ => rfl

/-- The zero offsets, however spelt. -/
theorem zeroOffsets : (![0, 0] : Fin 2 → Nat) = fun _ => 0 := funext fun a => by fin_cases a <;> rfl

/-- The dense layer of the whole arrays the region finds. -/
abbrev classifierOfWhole (c : Dev nD) : Vec Ideal S50000x40 .f32 :=
  Cert.Gin.dense (V c main_v66 : Vec Ideal S50000x128 .f32) (V c main_arg7 : Vec Ideal S128x40 .f32)
    (Cert.Gin.rowOf (V c main_v67 : Vec Ideal S1x40 .f32))

/-- The printed index maps, decided over the grid: the feature block and the output block of point t are both
    row block t; the weights and the bias are whole. -/
theorem blocks_move_together : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 24 :=
  (by decide +kernel : ∀ t : Fin grid3.N, _)

/-- The weights' block at any point is the whole weight matrix. -/
theorem weights_block_whole (c : Dev nD) (t : Fin cfg3.N) : (iblk3 V c 1 t : Vec Ideal S128x40 .f32) = V c main_arg7 := by
  obtain ⟨-, -, e2, e3, -, -, -, -⟩ := blocks_move_together t
  funext j
  show V c main_arg7 (((cfg3.win 1).blk t).view.emb j) = V c main_arg7 j
  refine congrArg (V c main_arg7) ?_
  funext a; apply Fin.ext
  match a with
  | ⟨0, _⟩ => show win3_1.index t (0 : Fin 2) * 128 + 1 * (j 0).val = (j 0).val; omega
  | ⟨1, _⟩ => show win3_1.index t (1 : Fin 2) * 40 + 1 * (j 1).val = (j 1).val; omega

/-- The bias block at any point is the whole bias row. -/
theorem bias_block_whole (c : Dev nD) (t : Fin cfg3.N) : (iblk3 V c 2 t : Vec Ideal S1x40 .f32) = V c main_v67 := by
  obtain ⟨-, -, -, -, e4, e5, -, -⟩ := blocks_move_together t
  funext j
  show V c main_v67 (((cfg3.win 2).blk t).view.emb j) = V c main_v67 j
  refine congrArg (V c main_v67) ?_
  funext a; apply Fin.ext
  match a with
  | ⟨0, _⟩ => show win3_2.index t (0 : Fin 2) * 1 + 1 * (j 0).val = (j 0).val; omega
  | ⟨1, _⟩ => show win3_2.index t (1 : Fin 2) * 40 + 1 * (j 1).val = (j 1).val; omega

/-- What point t writes back is row block t of the dense layer of the whole arrays: the block's dense layer reads,
    row by row, the same rows of the features, the whole weights and the whole bias row. -/
theorem written_back_is_row_block (c : Dev nD) (t : Fin cfg3.N) :
    (dat3 (F := Ideal) V c).flushed 3 t = ((cfg3.win 3).blk t).view.read (Elt Ideal) (classifierOfWhole V c) := by
  show (cfg3.win 3).cut (grid3.coords t) ((dat3 V c).after 3 t) = _
  rw [after3_3]
  unfold out3_3
  rw [View.canon_unit_zero zeroOffsets]
  simp only [View.ld_unit_zero (S := S2000x128) zeroOffsets, View.ld_unit_zero (S := S128x40) zeroOffsets, View.ld_unit_zero (S := S1x40) zeroOffsets]
  rw [body_is_dense_layer, weights_block_whole, bias_block_whole]
  obtain ⟨e0, e1, -, -, -, -, e6, e7⟩ := blocks_move_together t
  funext j
  obtain ⟨r, q, rfl⟩ : ∃ (r : Fin 2000) (q : Fin 40), j = ix2 r q := ⟨j 0, j 1, eq_ix2 (n0 := 2000) (n1 := 40) j⟩
  show Cert.Gin.dense (iblk3 V c 0 t : Vec Ideal S2000x128 .f32) (V c main_arg7 : Vec Ideal S128x40 .f32)
      (Cert.Gin.rowOf (V c main_v67 : Vec Ideal S1x40 .f32)) (ix2 r q)
    = classifierOfWhole V c (((cfg3.win 3).blk t).view.emb (ix2 r q))
  have he : ((cfg3.win 3).blk t).view.emb (ix2 r q)
      = ix2 (⟨win3_3.index t (0 : Fin 2) * 2000 + r.val, by have := r.isLt; omega⟩ : Fin 50000) q := by
    funext a; apply Fin.ext
    match a with
    | ⟨0, _⟩ => show win3_3.index t (0 : Fin 2) * 2000 + 1 * r.val = win3_3.index t (0 : Fin 2) * 2000 + r.val; omega
    | ⟨1, _⟩ => show win3_3.index t (1 : Fin 2) * 40 + 1 * q.val = q.val; omega
  rw [he]
  refine Cert.Gin.dense_row _ _ _ _ r _ (fun k => ?_) q
  show V c main_v66 (((cfg3.win 0).blk t).view.emb (ix2 r k)) = V c main_v66 (ix2 _ k)
  refine congrArg (V c main_v66) ?_
  funext a; apply Fin.ext
  match a with
  | ⟨0, _⟩ => show win3_0.index t (0 : Fin 2) * 2000 + 1 * r.val = win3_3.index t (0 : Fin 2) * 2000 + r.val; omega
  | ⟨1, _⟩ => show win3_0.index t (1 : Fin 2) * 128 + 1 * k.val = k.val; omega

/-- Every row block is some point's. -/
theorem every_row_block_is_a_point : ∀ q0 : Fin 25, ∃ t : Fin cfg3.N, win3_3.index t = ![q0.val, 0] :=
  (by decide +kernel : ∀ q0 : Fin 25, ∃ t : Fin grid3.N, win3_3.index t = ![q0.val, 0])

/-- An index of the array is in point t's block iff each coordinate is in the block's range on its axis. -/
theorem mem_block_iff (t : Fin cfg3.N) (i : S50000x40.Idx) :
    i ∈ ((cfg3.win 3).blk t).view.set ↔ ∀ a : Fin 2, win3_3.index t a * S2000x40.size a ≤ (i a).val ∧ (i a).val < win3_3.index t a * S2000x40.size a + S2000x40.size a := by
  show i ∈ ((View.whole main_v68).slice (win3_3.rect t)).set ↔ _
  rw [View.set_slice_whole, Rect.mem_set_unit]
  exact Iff.rfl

/-- The row blocks tile the array: row i lies in the block of point i / 2000, and every point writes back. -/
theorem row_blocks_tile (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  obtain ⟨t, ht⟩ := every_row_block_is_a_point ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_block_iff]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 40 ≤ (i 1).val ∧ (i 1).val < win3_3.index t (1 : Fin 2) * 40 + 40; omega

/-- What region 3 leaves in its output array, in terms of the arrays it finds. -/
theorem region3_value (c : Dev nD) :
    ((dat3 (F := Ideal) V c).arrAt 3 cfg3.N : Vec Ideal S50000x40 .f32)
      = Cert.Gin.dense (V c main_v66 : Vec Ideal S50000x128 .f32) (V c main_arg7 : Vec Ideal S128x40 .f32)
          (Cert.Gin.rowOf (V c main_v67 : Vec Ideal S1x40 .f32)) :=
  (dat3 V c).arrAt_eq_of_cover 3 (classifierOfWhole V c) (fun t _ => written_back_is_row_block V c t) row_blocks_tile

end Cert.KernelIdeal.RegVal3

end
-- ==== Proof.HostK.lean ====
/- The host-side functions of the program's arguments that every round uses, named once: the source and the
   destination index columns read off the edge list, the neighbour sum agg h (row d of the result is the sum of the
   rows h[src e] over the edges e with dst e = d, as a gather followed by a scatter-add into zeros), and the
   slices of the stacked weights and biases that round k takes. -/
import proofs.«153685_j44908178047327_1_alg».proof.Proof.Gen.KernelIdeal

noncomputable section

namespace Cert.KernelIdeal.HostVal

open Cert.KernelIdeal Cert.KernelIdeal.Gen Idealize.ShloMosaic

variable {F : FTy → Type} [FloatOps F]

/-- Row 0 of the edge list: the source node of each edge. -/
def srcVec (ei : Vec F S2x600000 .i32) : Vec F S600000 .i32 :=
  shapeCast S600000 (extractStridedSlice S1x600000 ![0, 0] ei slices_S2x600000_S1x600000_0_0) shapeCasts_S1x600000_S600000

/-- Row 1 of the edge list: the destination node of each edge. -/
def dstVec (ei : Vec F S2x600000 .i32) : Vec F S600000 .i32 :=
  shapeCast S600000 (extractStridedSlice S1x600000 ![1, 0] ei slices_S2x600000_S1x600000_1_0) shapeCasts_S1x600000_S600000

/-- The source indices as a column of start indices, a negative index counted from the end (50000 added). -/
def srcCol (ei : Vec F S2x600000 .i32) : Vec F S600000x1 .i32 :=
  broadcastInDim S600000x1 ![0] bcast_S600000_S600000x1_0
    (select (cmpi .slt (srcVec ei) (broadcastInDim S600000 ![] bcast_S_S600000 (constantI S_ 32 0#32)))
      (addi (srcVec ei) (broadcastInDim S600000 ![] bcast_S_S600000 (constantI S_ 32 50000#32))) (srcVec ei))

/-- The destination indices as a column of start indices. -/
def dstCol (ei : Vec F S2x600000 .i32) : Vec F S600000x1 .i32 :=
  broadcastInDim S600000x1 ![0] bcast_S600000_S600000x1_0 (dstVec ei)

/-- The neighbour sum: the rows of h gathered at the sources, scatter-added at the destinations into zeros. -/
def agg (ei : Vec F S2x600000 .i32) (h : FVec F S50000x128 .f32) : FVec F S50000x128 .f32 :=
  Host.scatterAdd scatter_S50000x128_S600000x1_S600000x128_1_0_0_1
    (broadcastInDim S50000x128 ![] bcast_S_S50000x128 (constant S_ .f32 0x00000000#32)) (dstCol ei)
    (Host.gather gather_S50000x128_S600000x1_S600000x128_1_0_n_n_0_1_1128 h (srcCol ei))

/-- Round k's weight matrix out of a stack of three. -/
def wmat0 (w : FVec F S3x128x128 .f32) : FVec F S128x128 .f32 :=
  shapeCast S128x128 (extractStridedSlice S1x128x128 ![0, 0, 0] w slices_S3x128x128_S1x128x128_0_0_0) shapeCasts_S1x128x128_S128x128
def wmat1 (w : FVec F S3x128x128 .f32) : FVec F S128x128 .f32 :=
  shapeCast S128x128 (extractStridedSlice S1x128x128 ![1, 0, 0] w slices_S3x128x128_S1x128x128_1_0_0) shapeCasts_S1x128x128_S128x128
def wmat2 (w : FVec F S3x128x128 .f32) : FVec F S128x128 .f32 :=
  shapeCast S128x128 (extractStridedSlice S1x128x128 ![2, 0, 0] w slices_S3x128x128_S1x128x128_2_0_0) shapeCasts_S1x128x128_S128x128

/-- Round k's bias vector out of a stack of three. -/
def bvec0 (b : FVec F S3x128 .f32) : FVec F S128 .f32 :=
  shapeCast S128 (extractStridedSlice S1x128 ![0, 0] b slices_S3x128_S1x128_0_0) shapeCasts_S1x128_S128
def bvec1 (b : FVec F S3x128 .f32) : FVec F S128 .f32 :=
  shapeCast S128 (extractStridedSlice S1x128 ![1, 0] b slices_S3x128_S1x128_1_0) shapeCasts_S1x128_S128
def bvec2 (b : FVec F S3x128 .f32) : FVec F S128 .f32 :=
  shapeCast S128 (extractStridedSlice S1x128 ![2, 0] b slices_S3x128_S1x128_2_0) shapeCasts_S1x128_S128

end Cert.KernelIdeal.HostVal

end
-- ==== Proof.HostStages.lean ====
/- What each region finds in the arrays it reads, in terms of the program's arguments as launched and of what the
   region before it left: the host operations between two regions recompute the neighbour sum of the current node
   features and slice the next round's weights and biases out of the stacks; nothing else they or a region write is
   read later. -/
import proofs.«153685_j44908178047327_1_alg».proof.Proof.Gen.KernelIdeal.Frame
import proofs.«153685_j44908178047327_1_alg».proof.Proof.HostK
import Idealize.ShloMosaic.Lib.StableHlo.Run

set_option maxRecDepth 16384

noncomputable section

namespace Cert.KernelIdeal.HostStages

open Cert.KernelIdeal Cert.KernelIdeal.Gen Cert.KernelIdeal.HostVal
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## A buffer that no operation of a stretch writes keeps its contents -/

local macro "keeps" : tactic => `(tactic| (
  refine StableHlo.after_of_forall_not_mem _ _ (List.forall_iff_forall_mem.mp ?_)
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Region 0's entry: after the first stretch of host operations -/

theorem V1_h (c : Dev nD) : (V1 m ρ c main_arg0 : Vec F S50000x128 .f32) = (m ((c : Thread nD τ).loc main_arg0)) := by
  show StableHlo.after hostOps0 (W0 m ρ c) (Proc.devRef .tc main_arg0) = _
  after_results
theorem V1_agg (c : Dev nD) : (V1 m ρ c main_v13 : Vec F S50000x128 .f32) = agg (m ((c : Thread nD τ).loc main_arg2)) (m ((c : Thread nD τ).loc main_arg0)) := by
  show StableHlo.after hostOps0 (W0 m ρ c) (Proc.devRef .tc main_v13) = _
  after_results_simp
  rfl
theorem V1_w1 (c : Dev nD) : (V1 m ρ c main_v15 : Vec F S128x128 .f32) = wmat0 (m ((c : Thread nD τ).loc main_arg3)) := by
  show StableHlo.after hostOps0 (W0 m ρ c) (Proc.devRef .tc main_v15) = _
  after_results
  rfl
theorem V1_b1 (c : Dev nD) : (V1 m ρ c main_v22 : Vec F S1x128 .f32) = shapeCast S1x128 (bvec0 (m ((c : Thread nD τ).loc main_arg4))) shapeCasts_S128_S1x128 := by
  show StableHlo.after hostOps0 (W0 m ρ c) (Proc.devRef .tc main_v22) = _
  after_results
  rfl
theorem V1_w2 (c : Dev nD) : (V1 m ρ c main_v19 : Vec F S128x128 .f32) = wmat0 (m ((c : Thread nD τ).loc main_arg5)) := by
  show StableHlo.after hostOps0 (W0 m ρ c) (Proc.devRef .tc main_v19) = _
  after_results
  rfl
theorem V1_b2 (c : Dev nD) : (V1 m ρ c main_v23 : Vec F S1x128 .f32) = shapeCast S1x128 (bvec0 (m ((c : Thread nD τ).loc main_arg6))) shapeCasts_S128_S1x128 := by
  show StableHlo.after hostOps0 (W0 m ρ c) (Proc.devRef .tc main_v23) = _
  after_results
  rfl

/-! ## What the later stretches read of the first one: the source and the destination vectors, and the arguments,
    which no operation writes -/

theorem W1_src (c : Dev nD) : (W1 m ρ c (Proc.devRef .tc main_v1) : Vec F S600000 .i32) = srcVec (m ((c : Thread nD τ).loc main_arg2)) := by
  show StableHlo.after hostOps0 (W0 m ρ c) (Proc.devRef .tc main_v1) = _
  after_results
  rfl
theorem W1_dst (c : Dev nD) : (W1 m ρ c (Proc.devRef .tc main_v3) : Vec F S600000 .i32) = dstVec (m ((c : Thread nD τ).loc main_arg2)) := by
  show StableHlo.after hostOps0 (W0 m ρ c) (Proc.devRef .tc main_v3) = _
  after_results
  rfl
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results

/-! ## Region 0's exit: none of those buffers is an array of the region; its output array holds what the region leaves -/

theorem W2_src (c : Dev nD) : (W2 m ρ c (Proc.devRef .tc main_v1) : Vec F S600000 .i32) = srcVec (m ((c : Thread nD τ).loc main_arg2)) :=
  (W2_of_ne m ρ c main_v1 (by decide)).trans (W1_src m ρ c)
theorem W2_dst (c : Dev nD) : (W2 m ρ c (Proc.devRef .tc main_v3) : Vec F S600000 .i32) = dstVec (m ((c : Thread nD τ).loc main_arg2)) :=
  (W2_of_ne m ρ c main_v3 (by decide)).trans (W1_dst m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_out (c : Dev nD) : (W2 m ρ c (Proc.devRef .tc main_v24) : Vec F S50000x128 .f32) = ((dat0 (V1 m ρ) c).arrAt 6 cfg0.N : Vec F S50000x128 .f32) :=
  W2_arr m ρ c 6

/-! ## Region 1's entry -/

theorem V3_h (c : Dev nD) : (V3 m ρ c main_v24 : Vec F S50000x128 .f32) = ((dat0 (V1 m ρ) c).arrAt 6 cfg0.N : Vec F S50000x128 .f32) := by
  refine Eq.trans ?_ (W2_out m ρ c)
  show W3 m ρ c (Proc.devRef .tc main_v24) = W2 m ρ c (Proc.devRef .tc main_v24)
  keeps
theorem V3_agg (c : Dev nD) : (V3 m ρ c main_v34 : Vec F S50000x128 .f32) = agg (m ((c : Thread nD τ).loc main_arg2)) ((dat0 (V1 m ρ) c).arrAt 6 cfg0.N : Vec F S50000x128 .f32) := by
  show StableHlo.after hostOps1 (W2 m ρ c) (Proc.devRef .tc main_v34) = _
  after_results_simp
  rw [W2_src, W2_dst, W2_out]
  rfl
theorem V3_w1 (c : Dev nD) : (V3 m ρ c main_v36 : Vec F S128x128 .f32) = wmat1 (m ((c : Thread nD τ).loc main_arg3)) := by
  show StableHlo.after hostOps1 (W2 m ρ c) (Proc.devRef .tc main_v36) = _
  after_results
  rw [W2_arg3]
  rfl
theorem V3_b1 (c : Dev nD) : (V3 m ρ c main_v43 : Vec F S1x128 .f32) = shapeCast S1x128 (bvec1 (m ((c : Thread nD τ).loc main_arg4))) shapeCasts_S128_S1x128 := by
  show StableHlo.after hostOps1 (W2 m ρ c) (Proc.devRef .tc main_v43) = _
  after_results
  rw [W2_arg4]
  rfl
theorem V3_w2 (c : Dev nD) : (V3 m ρ c main_v40 : Vec F S128x128 .f32) = wmat1 (m ((c : Thread nD τ).loc main_arg5)) := by
  show StableHlo.after hostOps1 (W2 m ρ c) (Proc.devRef .tc main_v40) = _
  after_results
  rw [W2_arg5]
  rfl
theorem V3_b2 (c : Dev nD) : (V3 m ρ c main_v44 : Vec F S1x128 .f32) = shapeCast S1x128 (bvec1 (m ((c : Thread nD τ).loc main_arg6))) shapeCasts_S128_S1x128 := by
  show StableHlo.after hostOps1 (W2 m ρ c) (Proc.devRef .tc main_v44) = _
  after_results
  rw [W2_arg6]
  rfl

/-! ## The second stretch and region 1 write none of the vectors and arguments -/

theorem W3_src (c : Dev nD) : (W3 m ρ c (Proc.devRef .tc main_v1) : Vec F S600000 .i32) = srcVec (m ((c : Thread nD τ).loc main_arg2)) := by
  refine Eq.trans ?_ (W2_src m ρ c)
  show W3 m ρ c (Proc.devRef .tc main_v1) = W2 m ρ c (Proc.devRef .tc main_v1)
  keeps
theorem W3_dst (c : Dev nD) : (W3 m ρ c (Proc.devRef .tc main_v3) : Vec F S600000 .i32) = dstVec (m ((c : Thread nD τ).loc main_arg2)) := by
  refine Eq.trans ?_ (W2_dst m ρ c)
  show W3 m ρ c (Proc.devRef .tc main_v3) = W2 m ρ c (Proc.devRef .tc main_v3)
  keeps
theorem W3_arg3 (c : Dev nD) : W3 m ρ c (Proc.devRef .tc main_arg3) = m ((c : Thread nD τ).loc main_arg3) := by
  refine Eq.trans ?_ (W2_arg3 m ρ c)
  show W3 m ρ c (Proc.devRef .tc main_arg3) = W2 m ρ c (Proc.devRef .tc main_arg3)
  keeps
theorem W3_arg4 (c : Dev nD) : W3 m ρ c (Proc.devRef .tc main_arg4) = m ((c : Thread nD τ).loc main_arg4) := by
  refine Eq.trans ?_ (W2_arg4 m ρ c)
  show W3 m ρ c (Proc.devRef .tc main_arg4) = W2 m ρ c (Proc.devRef .tc main_arg4)
  keeps
theorem W3_arg5 (c : Dev nD) : W3 m ρ c (Proc.devRef .tc main_arg5) = m ((c : Thread nD τ).loc main_arg5) := by
  refine Eq.trans ?_ (W2_arg5 m ρ c)
  show W3 m ρ c (Proc.devRef .tc main_arg5) = W2 m ρ c (Proc.devRef .tc main_arg5)
  keeps
theorem W3_arg6 (c : Dev nD) : W3 m ρ c (Proc.devRef .tc main_arg6) = m ((c : Thread nD τ).loc main_arg6) := by
  refine Eq.trans ?_ (W2_arg6 m ρ c)
  show W3 m ρ c (Proc.devRef .tc main_arg6) = W2 m ρ c (Proc.devRef .tc main_arg6)
  keeps
theorem W3_arg7 (c : Dev nD) : W3 m ρ c (Proc.devRef .tc main_arg7) = m ((c : Thread nD τ).loc main_arg7) := by
  refine Eq.trans ?_ (W2_arg7 m ρ c)
  show W3 m ρ c (Proc.devRef .tc main_arg7) = W2 m ρ c (Proc.devRef .tc main_arg7)
  keeps
theorem W3_arg8 (c : Dev nD) : W3 m ρ c (Proc.devRef .tc main_arg8) = m ((c : Thread nD τ).loc main_arg8) := by
  refine Eq.trans ?_ (W2_arg8 m ρ c)
  show W3 m ρ c (Proc.devRef .tc main_arg8) = W2 m ρ c (Proc.devRef .tc main_arg8)
  keeps
theorem W4_src (c : Dev nD) : (W4 m ρ c (Proc.devRef .tc main_v1) : Vec F S600000 .i32) = srcVec (m ((c : Thread nD τ).loc main_arg2)) :=
  (W4_of_ne m ρ c main_v1 (by decide)).trans (W3_src m ρ c)
theorem W4_dst (c : Dev nD) : (W4 m ρ c (Proc.devRef .tc main_v3) : Vec F S600000 .i32) = dstVec (m ((c : Thread nD τ).loc main_arg2)) :=
  (W4_of_ne m ρ c main_v3 (by decide)).trans (W3_dst m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_out (c : Dev nD) : (W4 m ρ c (Proc.devRef .tc main_v45) : Vec F S50000x128 .f32) = ((dat1 (V3 m ρ) c).arrAt 6 cfg1.N : Vec F S50000x128 .f32) :=
  W4_arr m ρ c 6

/-! ## Region 2's entry -/

theorem V5_h (c : Dev nD) : (V5 m ρ c main_v45 : Vec F S50000x128 .f32) = ((dat1 (V3 m ρ) c).arrAt 6 cfg1.N : Vec F S50000x128 .f32) := by
  refine Eq.trans ?_ (W4_out m ρ c)
  show W5 m ρ c (Proc.devRef .tc main_v45) = W4 m ρ c (Proc.devRef .tc main_v45)
  keeps
theorem V5_agg (c : Dev nD) : (V5 m ρ c main_v55 : Vec F S50000x128 .f32) = agg (m ((c : Thread nD τ).loc main_arg2)) ((dat1 (V3 m ρ) c).arrAt 6 cfg1.N : Vec F S50000x128 .f32) := by
  show StableHlo.after hostOps2 (W4 m ρ c) (Proc.devRef .tc main_v55) = _
  after_results_simp
  rw [W4_src, W4_dst, W4_out]
  rfl
theorem V5_w1 (c : Dev nD) : (V5 m ρ c main_v57 : Vec F S128x128 .f32) = wmat2 (m ((c : Thread nD τ).loc main_arg3)) := by
  show StableHlo.after hostOps2 (W4 m ρ c) (Proc.devRef .tc main_v57) = _
  after_results
  rw [W4_arg3]
  rfl
theorem V5_b1 (c : Dev nD) : (V5 m ρ c main_v64 : Vec F S1x128 .f32) = shapeCast S1x128 (bvec2 (m ((c : Thread nD τ).loc main_arg4))) shapeCasts_S128_S1x128 := by
  show StableHlo.after hostOps2 (W4 m ρ c) (Proc.devRef .tc main_v64) = _
  after_results
  rw [W4_arg4]
  rfl
theorem V5_w2 (c : Dev nD) : (V5 m ρ c main_v61 : Vec F S128x128 .f32) = wmat2 (m ((c : Thread nD τ).loc main_arg5)) := by
  show StableHlo.after hostOps2 (W4 m ρ c) (Proc.devRef .tc main_v61) = _
  after_results
  rw [W4_arg5]
  rfl
theorem V5_b2 (c : Dev nD) : (V5 m ρ c main_v65 : Vec F S1x128 .f32) = shapeCast S1x128 (bvec2 (m ((c : Thread nD τ).loc main_arg6))) shapeCasts_S128_S1x128 := by
  show StableHlo.after hostOps2 (W4 m ρ c) (Proc.devRef .tc main_v65) = _
  after_results
  rw [W4_arg6]
  rfl

/-! ## The third stretch and region 2 write neither of the last two arguments -/

theorem W5_arg7 (c : Dev nD) : W5 m ρ c (Proc.devRef .tc main_arg7) = m ((c : Thread nD τ).loc main_arg7) := by
  refine Eq.trans ?_ (W4_arg7 m ρ c)
  show W5 m ρ c (Proc.devRef .tc main_arg7) = W4 m ρ c (Proc.devRef .tc main_arg7)
  keeps
theorem W5_arg8 (c : Dev nD) : W5 m ρ c (Proc.devRef .tc main_arg8) = m ((c : Thread nD τ).loc main_arg8) := by
  refine Eq.trans ?_ (W4_arg8 m ρ c)
  show W5 m ρ c (Proc.devRef .tc main_arg8) = W4 m ρ c (Proc.devRef .tc main_arg8)
  keeps
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W6_out (c : Dev nD) : (W6 m ρ c (Proc.devRef .tc main_v66) : Vec F S50000x128 .f32) = ((dat2 (V5 m ρ) c).arrAt 6 cfg2.N : Vec F S50000x128 .f32) :=
  W6_arr m ρ c 6

/-! ## Region 3's entry -/

theorem V7_h (c : Dev nD) : (V7 m ρ c main_v66 : Vec F S50000x128 .f32) = ((dat2 (V5 m ρ) c).arrAt 6 cfg2.N : Vec F S50000x128 .f32) := by
  refine Eq.trans ?_ (W6_out m ρ c)
  show W7 m ρ c (Proc.devRef .tc main_v66) = W6 m ρ c (Proc.devRef .tc main_v66)
  keeps
theorem V7_wc (c : Dev nD) : (V7 m ρ c main_arg7 : Vec F S128x40 .f32) = (m ((c : Thread nD τ).loc main_arg7)) := by
  refine Eq.trans ?_ (W6_arg7 m ρ c)
  show W7 m ρ c (Proc.devRef .tc main_arg7) = W6 m ρ c (Proc.devRef .tc main_arg7)
  keeps
theorem V7_bc (c : Dev nD) : (V7 m ρ c main_v67 : Vec F S1x40 .f32) = shapeCast S1x40 (m ((c : Thread nD τ).loc main_arg8)) shapeCasts_S40_S1x40 := by
  show StableHlo.after hostOps3 (W6 m ρ c) (Proc.devRef .tc main_v67) = _
  after_results
  rw [W6_arg8]
  rfl

end Cert.KernelIdeal.HostStages

end
-- ==== Proof.KernelValue.lean ====
/- The kernel program's result array as the network of three rounds and a classifier applied to its arguments:
   the last region's output is the classifier's dense layer of what it finds; what it finds is the third round's
   output, the classifier's weights and the bias as a row; and so on back through the rounds to the arguments, each
   round's neighbour sum being the host's gather and scatter-add of the node features of that moment. -/
import proofs.«153685_j44908178047327_1_alg».proof.Proof.RegionValue0
import proofs.«153685_j44908178047327_1_alg».proof.Proof.RegionValue1
import proofs.«153685_j44908178047327_1_alg».proof.Proof.RegionValue2
import proofs.«153685_j44908178047327_1_alg».proof.Proof.RegionValue3
import proofs.«153685_j44908178047327_1_alg».proof.Proof.HostStages

set_option maxRecDepth 16384

noncomputable section

namespace Cert.KernelIdeal.KVal

open Cert.KernelIdeal Cert.KernelIdeal.Gen Cert.KernelIdeal.HostVal Cert.KernelIdeal.HostStages
open Idealize.ShloMosaic Idealize.ShloMosaic.TcCoe Idealize.ShloMosaic.ValueIdx Idealize.SL.Sem

/-- A vector cast to a one-row matrix and read back as a vector is the vector. -/
theorem rowOf_cast {n : Nat} (b : FVec Ideal ⟨1, ![n]⟩ .f32) (h : (⟨1, ![n]⟩ : Shape).ShapeCasts ⟨2, ![1, n]⟩) :
    Cert.Gin.rowOf (shapeCast ⟨2, ![1, n]⟩ b h) = b := by
  funext j
  show shapeCast ⟨2, ![1, n]⟩ b h (ix2 (0 : Fin 1) (j 0)) = b j
  rw [Cert.BiasRow.oneRow_cast_apply b h (j 0)]
  exact congrArg b (eq_ix1 j).symm

/-- A one-row matrix that is the cast of a vector, read back as a vector. -/
theorem rowOf_of_eq {n : Nat} {r : FVec Ideal ⟨2, ![1, n]⟩ .f32} {b : FVec Ideal ⟨1, ![n]⟩ .f32}
    {h : (⟨1, ![n]⟩ : Shape).ShapeCasts ⟨2, ![1, n]⟩} (e : r = shapeCast ⟨2, ![1, n]⟩ b h) : Cert.Gin.rowOf r = b :=
  (congrArg Cert.Gin.rowOf e).trans (rowOf_cast b h)

/-- One round of the network from equal ingredients. -/
theorem round_of_eq {agg : Cert.Gin.NodeFeat → Cert.Gin.NodeFeat} {h h' a : Cert.Gin.NodeFeat}
    {w1 w1' w2 w2' : FVec Ideal ⟨2, ![128, 128]⟩ .f32} {b1 b1' b2 b2' : FVec Ideal ⟨1, ![128]⟩ .f32}
    (eh : h = h') (ea : a = agg h') (e1 : w1 = w1') (eb1 : b1 = b1') (e2 : w2 = w2') (eb2 : b2 = b2') :
    Cert.Gin.mlp (addf h a) w1 b1 w2 b2 = Cert.Gin.round agg h' w1' b1' w2' b2' := by
  subst eh ea e1 eb1 e2 eb2
  rfl

/-- The classifier's dense layer from equal ingredients. -/
theorem dense_of_eq {h h' : Cert.Gin.NodeFeat} {w w' : FVec Ideal ⟨2, ![128, 40]⟩ .f32} {b b' : FVec Ideal ⟨1, ![40]⟩ .f32}
    (eh : h = h') (ew : w = w') (eb : b = b') : Cert.Gin.dense h w b = Cert.Gin.dense h' w' b' := by
  subst eh ew eb
  rfl

variable (m : (ℓ : Loc nD τ sig) → Buf (Elt Ideal) ℓ) (ρ : Dev nD → PrngReg)

/-- What region 0 leaves: the first round of the arguments. -/
theorem after_round0 (c : Dev nD) :
    ((dat0 (F := Ideal) (V1 m ρ) c).arrAt 6 cfg0.N : Vec Ideal S50000x128 .f32)
      = Cert.Gin.round (agg (m ((c : Thread nD τ).loc main_arg2))) (m ((c : Thread nD τ).loc main_arg0))
          (wmat0 (m ((c : Thread nD τ).loc main_arg3))) (bvec0 (m ((c : Thread nD τ).loc main_arg4))) (wmat0 (m ((c : Thread nD τ).loc main_arg5))) (bvec0 (m ((c : Thread nD τ).loc main_arg6))) :=
  (Cert.KernelIdeal.RegVal0.region0_value (V1 m ρ) c).trans
    (round_of_eq (V1_h (F := Ideal) m ρ c) (V1_agg (F := Ideal) m ρ c) (V1_w1 (F := Ideal) m ρ c)
      (rowOf_of_eq (V1_b1 (F := Ideal) m ρ c)) (V1_w2 (F := Ideal) m ρ c) (rowOf_of_eq (V1_b2 (F := Ideal) m ρ c)))

/-- What region 1 leaves: the second round of what region 0 left. -/
theorem after_round1 (c : Dev nD) :
    ((dat1 (F := Ideal) (V3 m ρ) c).arrAt 6 cfg1.N : Vec Ideal S50000x128 .f32)
      = Cert.Gin.round (agg (m ((c : Thread nD τ).loc main_arg2))) ((dat0 (F := Ideal) (V1 m ρ) c).arrAt 6 cfg0.N : Vec Ideal S50000x128 .f32)
          (wmat1 (m ((c : Thread nD τ).loc main_arg3))) (bvec1 (m ((c : Thread nD τ).loc main_arg4))) (wmat1 (m ((c : Thread nD τ).loc main_arg5))) (bvec1 (m ((c : Thread nD τ).loc main_arg6))) :=
  (Cert.KernelIdeal.RegVal1.region1_value (V3 m ρ) c).trans
    (round_of_eq (V3_h (F := Ideal) m ρ c) (V3_agg (F := Ideal) m ρ c) (V3_w1 (F := Ideal) m ρ c)
      (rowOf_of_eq (V3_b1 (F := Ideal) m ρ c)) (V3_w2 (F := Ideal) m ρ c) (rowOf_of_eq (V3_b2 (F := Ideal) m ρ c)))

/-- What region 2 leaves: the third round of what region 1 left. -/
theorem after_round2 (c : Dev nD) :
    ((dat2 (F := Ideal) (V5 m ρ) c).arrAt 6 cfg2.N : Vec Ideal S50000x128 .f32)
      = Cert.Gin.round (agg (m ((c : Thread nD τ).loc main_arg2))) ((dat1 (F := Ideal) (V3 m ρ) c).arrAt 6 cfg1.N : Vec Ideal S50000x128 .f32)
          (wmat2 (m ((c : Thread nD τ).loc main_arg3))) (bvec2 (m ((c : Thread nD τ).loc main_arg4))) (wmat2 (m ((c : Thread nD τ).loc main_arg5))) (bvec2 (m ((c : Thread nD τ).loc main_arg6))) :=
  (Cert.KernelIdeal.RegVal2.region2_value (V5 m ρ) c).trans
    (round_of_eq (V5_h (F := Ideal) m ρ c) (V5_agg (F := Ideal) m ρ c) (V5_w1 (F := Ideal) m ρ c)
      (rowOf_of_eq (V5_b1 (F := Ideal) m ρ c)) (V5_w2 (F := Ideal) m ρ c) (rowOf_of_eq (V5_b2 (F := Ideal) m ρ c)))

/-- What region 3 leaves: the classifier's layer of what region 2 left. -/
theorem after_classifier (c : Dev nD) :
    ((dat3 (F := Ideal) (V7 m ρ) c).arrAt 3 cfg3.N : Vec Ideal S50000x40 .f32)
      = Cert.Gin.dense ((dat2 (F := Ideal) (V5 m ρ) c).arrAt 6 cfg2.N : Vec Ideal S50000x128 .f32)
          (m ((c : Thread nD τ).loc main_arg7)) (m ((c : Thread nD τ).loc main_arg8)) :=
  (Cert.KernelIdeal.RegVal3.region3_value (V7 m ρ) c).trans
    (dense_of_eq (V7_h (F := Ideal) m ρ c) (V7_wc (F := Ideal) m ρ c) (rowOf_of_eq (V7_bc (F := Ideal) m ρ c)))

/-- The result array after the run, as the network of the arguments. -/
theorem result_value (c : Dev nD) :
    (W8 (F := Ideal) m ρ c (Proc.devRef .tc main_v68) : Vec Ideal S50000x40 .f32)
      = Cert.Gin.net (agg (m ((c : Thread nD τ).loc main_arg2))) (m ((c : Thread nD τ).loc main_arg0))
        (wmat0 (m ((c : Thread nD τ).loc main_arg3))) (bvec0 (m ((c : Thread nD τ).loc main_arg4))) (wmat0 (m ((c : Thread nD τ).loc main_arg5))) (bvec0 (m ((c : Thread nD τ).loc main_arg6)))
        (wmat1 (m ((c : Thread nD τ).loc main_arg3))) (bvec1 (m ((c : Thread nD τ).loc main_arg4))) (wmat1 (m ((c : Thread nD τ).loc main_arg5))) (bvec1 (m ((c : Thread nD τ).loc main_arg6)))
        (wmat2 (m ((c : Thread nD τ).loc main_arg3))) (bvec2 (m ((c : Thread nD τ).loc main_arg4))) (wmat2 (m ((c : Thread nD τ).loc main_arg5))) (bvec2 (m ((c : Thread nD τ).loc main_arg6)))
        (m ((c : Thread nD τ).loc main_arg7)) (m ((c : Thread nD τ).loc main_arg8)) := by
  refine (W8_arr (F := Ideal) m ρ c 3).trans ((after_classifier m ρ c).trans ?_)
  unfold Cert.Gin.net
  refine dense_of_eq ((after_round2 m ρ c).trans ?_) rfl rfl
  refine congrArg (fun h => Cert.Gin.round _ h _ _ _ _) ((after_round1 m ρ c).trans ?_)
  exact congrArg (fun h => Cert.Gin.round _ h _ _ _ _) (after_round0 m ρ c)

end Cert.KernelIdeal.KVal

end
-- ==== Proof.HostR.lean ====
/- The host-side functions of the program's arguments that every round uses, named once: the source and the
   destination index columns read off the edge list, the neighbour sum agg h (row d of the result is the sum of the
   rows h[src e] over the edges e with dst e = d, as a gather followed by a scatter-add into zeros), and the
   slices of the stacked weights and biases that round k takes. -/
import proofs.«153685_j44908178047327_1_alg».proof.Proof.Gen.ReferenceIdeal

noncomputable section

namespace Cert.ReferenceIdeal.HostVal

open Cert.ReferenceIdeal Cert.ReferenceIdeal.Gen Idealize.ShloMosaic

variable {F : FTy → Type} [FloatOps F]

/-- Row 0 of the edge list: the source node of each edge. -/
def srcVec (ei : Vec F S2x600000 .i32) : Vec F S600000 .i32 :=
  shapeCast S600000 (extractStridedSlice S1x600000 ![0, 0] ei slices_S2x600000_S1x600000_0_0) shapeCasts_S1x600000_S600000

/-- Row 1 of the edge list: the destination node of each edge. -/
def dstVec (ei : Vec F S2x600000 .i32) : Vec F S600000 .i32 :=
  shapeCast S600000 (extractStridedSlice S1x600000 ![1, 0] ei slices_S2x600000_S1x600000_1_0) shapeCasts_S1x600000_S600000

/-- The source indices as a column of start indices, a negative index counted from the end (50000 added). -/
def srcCol (ei : Vec F S2x600000 .i32) : Vec F S600000x1 .i32 :=
  broadcastInDim S600000x1 ![0] bcast_S600000_S600000x1_0
    (select (cmpi .slt (srcVec ei) (broadcastInDim S600000 ![] bcast_S_S600000 (constantI S_ 32 0#32)))
      (addi (srcVec ei) (broadcastInDim S600000 ![] bcast_S_S600000 (constantI S_ 32 50000#32))) (srcVec ei))

/-- The destination indices as a column of start indices. -/
def dstCol (ei : Vec F S2x600000 .i32) : Vec F S600000x1 .i32 :=
  broadcastInDim S600000x1 ![0] bcast_S600000_S600000x1_0 (dstVec ei)

/-- The neighbour sum: the rows of h gathered at the sources, scatter-added at the destinations into zeros. -/
def agg (ei : Vec F S2x600000 .i32) (h : FVec F S50000x128 .f32) : FVec F S50000x128 .f32 :=
  Host.scatterAdd scatter_S50000x128_S600000x1_S600000x128_1_0_0_1
    (broadcastInDim S50000x128 ![] bcast_S_S50000x128 (constant S_ .f32 0x00000000#32)) (dstCol ei)
    (Host.gather gather_S50000x128_S600000x1_S600000x128_1_0_n_n_0_1_1128 h (srcCol ei))

/-- Round k's weight matrix out of a stack of three. -/
def wmat0 (w : FVec F S3x128x128 .f32) : FVec F S128x128 .f32 :=
  shapeCast S128x128 (extractStridedSlice S1x128x128 ![0, 0, 0] w slices_S3x128x128_S1x128x128_0_0_0) shapeCasts_S1x128x128_S128x128
def wmat1 (w : FVec F S3x128x128 .f32) : FVec F S128x128 .f32 :=
  shapeCast S128x128 (extractStridedSlice S1x128x128 ![1, 0, 0] w slices_S3x128x128_S1x128x128_1_0_0) shapeCasts_S1x128x128_S128x128
def wmat2 (w : FVec F S3x128x128 .f32) : FVec F S128x128 .f32 :=
  shapeCast S128x128 (extractStridedSlice S1x128x128 ![2, 0, 0] w slices_S3x128x128_S1x128x128_2_0_0) shapeCasts_S1x128x128_S128x128

/-- Round k's bias vector out of a stack of three. -/
def bvec0 (b : FVec F S3x128 .f32) : FVec F S128 .f32 :=
  shapeCast S128 (extractStridedSlice S1x128 ![0, 0] b slices_S3x128_S1x128_0_0) shapeCasts_S1x128_S128
def bvec1 (b : FVec F S3x128 .f32) : FVec F S128 .f32 :=
  shapeCast S128 (extractStridedSlice S1x128 ![1, 0] b slices_S3x128_S1x128_1_0) shapeCasts_S1x128_S128
def bvec2 (b : FVec F S3x128 .f32) : FVec F S128 .f32 :=
  shapeCast S128 (extractStridedSlice S1x128 ![2, 0] b slices_S3x128_S1x128_2_0) shapeCasts_S1x128_S128

end Cert.ReferenceIdeal.HostVal

end
-- ==== Proof.RefValue.lean ====
/- The reference program's result array as the network of three rounds and a classifier applied to its
   arguments: each of the host's matrix products is the textbook product, a bias broadcast along both axes adds the
   vector to every row, a maximum with the zero array is the rectifier, and the gather and scatter-add between two
   rounds are the neighbour sum. -/
import proofs.«153685_j44908178047327_1_alg».proof.Proof.Gen.ReferenceIdeal.Run
import proofs.«153685_j44908178047327_1_alg».proof.Proof.Spec
import proofs.«153685_j44908178047327_1_alg».proof.Proof.LibBiasRow
import proofs.«153685_j44908178047327_1_alg».proof.Proof.HostR

set_option maxRecDepth 16384

noncomputable section

namespace Cert.ReferenceIdeal.RefVal

open Cert.ReferenceIdeal Cert.ReferenceIdeal.Gen Cert.ReferenceIdeal.HostVal
open Idealize.ShloMosaic Idealize.ShloMosaic.TcCoe Idealize.ShloMosaic.ValueIdx Idealize.SL.Sem

/-- The host's product of the node features with a square weight matrix is the textbook product. -/
theorem dot128_eq (A : FVec Ideal S50000x128 .f32) (B : FVec Ideal S128x128 .f32) :
    Host.dotGeneral dot_S50000x128_S128x128_S50000x128_1_0_0_1_n_n none A B = Cert.MatProd.matProd A B :=
  Cert.MatProd.hostDot_eq _ none A B

/-- The same for the classifier's 128-by-40 weight matrix. -/
theorem dot40_eq (A : FVec Ideal S50000x128 .f32) (B : FVec Ideal S128x40 .f32) :
    Host.dotGeneral dot_S50000x128_S128x40_S50000x40_1_0_0_1_n_n none A B = Cert.MatProd.matProd A B :=
  Cert.MatProd.hostDot_eq _ none A B

/-- A vector of 128 entries broadcast in two steps along every one of the 50000 rows reads the vector at the column. -/
theorem bias128_eq (b : FVec Ideal S128 .f32) :
    broadcastInDim S50000x128 ![0, 1] bcast_S1x128_S50000x128_0_1 (broadcastInDim S1x128 ![1] bcast_S128_S1x128_1 b)
      = fun i => b (ix1 (i 1)) := by
  funext i
  obtain ⟨a, j, rfl⟩ : ∃ (a : Fin 50000) (j : Fin 128), i = ix2 a j := ⟨i 0, i 1, eq_ix2 i⟩
  exact Cert.BiasRow.inDimRows_apply b _ _ a j

/-- The same for a vector of 40 entries. -/
theorem bias40_eq (b : FVec Ideal S40 .f32) :
    broadcastInDim S50000x40 ![0, 1] bcast_S1x40_S50000x40_0_1 (broadcastInDim S1x40 ![1] bcast_S40_S1x40_1 b)
      = fun i => b (ix1 (i 1)) := by
  funext i
  obtain ⟨a, j, rfl⟩ : ∃ (a : Fin 50000) (j : Fin 40), i = ix2 a j := ⟨i 0, i 1, eq_ix2 i⟩
  exact Cert.BiasRow.inDimRows_apply b _ _ a j

/-- A product plus the broadcast bias is the dense layer. -/
theorem dense128_eq (A : FVec Ideal S50000x128 .f32) (B : FVec Ideal S128x128 .f32) (b : FVec Ideal S128 .f32) :
    addf (Host.dotGeneral dot_S50000x128_S128x128_S50000x128_1_0_0_1_n_n none A B)
        (broadcastInDim S50000x128 ![0, 1] bcast_S1x128_S50000x128_0_1 (broadcastInDim S1x128 ![1] bcast_S128_S1x128_1 b))
      = Cert.Gin.dense A B b := by
  rw [dot128_eq, bias128_eq]
  rfl

theorem dense40_eq (A : FVec Ideal S50000x128 .f32) (B : FVec Ideal S128x40 .f32) (b : FVec Ideal S40 .f32) :
    addf (Host.dotGeneral dot_S50000x128_S128x40_S50000x40_1_0_0_1_n_n none A B)
        (broadcastInDim S50000x40 ![0, 1] bcast_S1x40_S50000x40_0_1 (broadcastInDim S1x40 ![1] bcast_S40_S1x40_1 b))
      = Cert.Gin.dense A B b := by
  rw [dot40_eq, bias40_eq]
  rfl

/-- The maximum with the zero array is the rectifier. -/
theorem relu128_eq (X : FVec Ideal S50000x128 .f32) :
    maximumf X (broadcastInDim S50000x128 ![] bcast_S_S50000x128 (constant S_ .f32 0x00000000#32)) = Cert.Gin.relu X := by
  funext i
  rfl

/-- The gather at the sources followed by the scatter-add at the destinations into zeros, as the program writes
    it over the edge list, is the neighbour sum. -/
theorem agg_eq (ei : Vec Ideal S2x600000 .i32) (X : FVec Ideal S50000x128 .f32) :
    Host.scatterAdd scatter_S50000x128_S600000x1_S600000x128_1_0_0_1
        (broadcastInDim S50000x128 ![] bcast_S_S50000x128 (constant S_ .f32 0x00000000#32))
        (broadcastInDim S600000x1 ![0] bcast_S600000_S600000x1_0
          (shapeCast S600000 (extractStridedSlice S1x600000 ![1, 0] ei slices_S2x600000_S1x600000_1_0) shapeCasts_S1x600000_S600000))
        (Host.gather gather_S50000x128_S600000x1_S600000x128_1_0_n_n_0_1_1128 X
          (broadcastInDim S600000x1 ![0] bcast_S600000_S600000x1_0
            (select (cmpi .slt (shapeCast S600000 (extractStridedSlice S1x600000 ![0, 0] ei slices_S2x600000_S1x600000_0_0) shapeCasts_S1x600000_S600000)
                (broadcastInDim S600000 ![] bcast_S_S600000 (constantI S_ 32 0#32)))
              (addi (shapeCast S600000 (extractStridedSlice S1x600000 ![0, 0] ei slices_S2x600000_S1x600000_0_0) shapeCasts_S1x600000_S600000)
                (broadcastInDim S600000 ![] bcast_S_S600000 (constantI S_ 32 50000#32)))
              (shapeCast S600000 (extractStridedSlice S1x600000 ![0, 0] ei slices_S2x600000_S1x600000_0_0) shapeCasts_S1x600000_S600000))))
      = agg ei X := rfl

/-- One round as the program writes it over an input X: X plus its neighbour sum through two rectified dense layers. -/
theorem round_eq (ei : Vec Ideal S2x600000 .i32) (X : FVec Ideal S50000x128 .f32)
    (w1 w2 : FVec Ideal S128x128 .f32) (b1 b2 : FVec Ideal S128 .f32) :
    maximumf (addf (Host.dotGeneral dot_S50000x128_S128x128_S50000x128_1_0_0_1_n_n none
        (maximumf (addf (Host.dotGeneral dot_S50000x128_S128x128_S50000x128_1_0_0_1_n_n none (addf X (agg ei X)) w1)
            (broadcastInDim S50000x128 ![0, 1] bcast_S1x128_S50000x128_0_1 (broadcastInDim S1x128 ![1] bcast_S128_S1x128_1 b1)))
          (broadcastInDim S50000x128 ![] bcast_S_S50000x128 (constant S_ .f32 0x00000000#32))) w2)
        (broadcastInDim S50000x128 ![0, 1] bcast_S1x128_S50000x128_0_1 (broadcastInDim S1x128 ![1] bcast_S128_S1x128_1 b2)))
      (broadcastInDim S50000x128 ![] bcast_S_S50000x128 (constant S_ .f32 0x00000000#32))
      = Cert.Gin.round (agg ei) X w1 b1 w2 b2 := by
  rw [dense128_eq, relu128_eq, dense128_eq, relu128_eq]
  rfl

/-- The reference's result term is the network of the arguments. -/
theorem res_eq (m : (ℓ : Loc nD τ sig) → Buf (Elt Ideal) ℓ) (c : Dev nD) :
    (Cert.ReferenceIdeal.Value.res_main_v94 (F := Ideal) m c : Vec Ideal S50000x40 .f32)
      = Cert.Gin.net (agg (m ((c.tc : Thread nD τ).loc main_arg2))) (m ((c.tc : Thread nD τ).loc main_arg0))
        (wmat0 (m ((c.tc : Thread nD τ).loc main_arg3))) (bvec0 (m ((c.tc : Thread nD τ).loc main_arg4))) (wmat0 (m ((c.tc : Thread nD τ).loc main_arg5))) (bvec0 (m ((c.tc : Thread nD τ).loc main_arg6)))
        (wmat1 (m ((c.tc : Thread nD τ).loc main_arg3))) (bvec1 (m ((c.tc : Thread nD τ).loc main_arg4))) (wmat1 (m ((c.tc : Thread nD τ).loc main_arg5))) (bvec1 (m ((c.tc : Thread nD τ).loc main_arg6)))
        (wmat2 (m ((c.tc : Thread nD τ).loc main_arg3))) (bvec2 (m ((c.tc : Thread nD τ).loc main_arg4))) (wmat2 (m ((c.tc : Thread nD τ).loc main_arg5))) (bvec2 (m ((c.tc : Thread nD τ).loc main_arg6)))
        (m ((c.tc : Thread nD τ).loc main_arg7)) (m ((c.tc : Thread nD τ).loc main_arg8)) := by
  unfold Cert.ReferenceIdeal.Value.res_main_v94
  rw [agg_eq, round_eq, agg_eq, round_eq, agg_eq, round_eq, dense40_eq]
  unfold Cert.Gin.net wmat0 wmat1 wmat2 bvec0 bvec1 bvec2
  with_reducible rfl

end Cert.ReferenceIdeal.RefVal

end
-- ==== Proof.lean ====
/- Two programs for a three-round graph network with a classifier: one runs each round's two dense layers, and the
   classifier, as kernels over blocks of 2000 node rows, with the neighbour sums computed by the host between them;
   the other is the host's whole-array formula. Read over the extended reals (a change of float format is the
   identity there, and a matrix product into a zero accumulator is the textbook product) both results are the same
   network of the same arguments: a row of a dense layer's result depends on that row of its input only, so the
   kernels' row blocks are the row blocks of the whole-array layers, and the neighbour sum is the same gather and
   scatter-add in both. No law of arithmetic beyond that is used, so the finiteness of the inputs is not needed. -/
import proofs.«153685_j44908178047327_1_alg».proof.Defs
import proofs.«153685_j44908178047327_1_alg».proof.Proof.Gen.Kernel
import proofs.«153685_j44908178047327_1_alg».proof.Proof.Gen.Kernel.Frame
import proofs.«153685_j44908178047327_1_alg».proof.Proof.Gen.KernelIdeal
import proofs.«153685_j44908178047327_1_alg».proof.Proof.Gen.KernelIdeal.Frame
import proofs.«153685_j44908178047327_1_alg».proof.Proof.Gen.ReferenceIdeal
import proofs.«153685_j44908178047327_1_alg».proof.Proof.Gen.ReferenceIdeal.Run
import proofs.«153685_j44908178047327_1_alg».proof.Proof.Gen.Pre_finite_inputs
import proofs.«153685_j44908178047327_1_alg».proof.Proof.RunResult
import proofs.«153685_j44908178047327_1_alg».proof.Proof.KernelValue
import proofs.«153685_j44908178047327_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The neighbour sum is the same function in the two programs: the same gather and scatter-add over the same
    index columns. -/
theorem agg_eq (ei : Vec Ideal Cert.KernelIdeal.S2x600000 .i32) (h : FVec Ideal Cert.KernelIdeal.S50000x128 .f32) :
    Cert.ReferenceIdeal.HostVal.agg (F := Ideal) ei h = Cert.KernelIdeal.HostVal.agg (F := Ideal) ei h := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result arrays, and the arguments agree. -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v68),
    Cert.KernelIdeal.RunResult.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  refine (Cert.ReferenceIdeal.RefVal.res_eq m' c).trans ((?_ : _ = _).trans (Cert.KernelIdeal.KVal.result_value m ρ c).symm)
  rw [a0, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
